-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S8x512x512 : Shape := ⟨3, ![8, 512, 512]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel

variable [Facts]

def fn {F : FTy → Type} [FloatOps F] (main_arg0 : FVec F S8x64x512x512 .f32) (main_arg1 : IVec S8x512x512 32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  main_v3
-- ==== Kernel.lean ====
abbrev S8x64x512x512 : Shape := ⟨4, ![8, 64, 512, 512]⟩
abbrev S8x512x512 : Shape := ⟨3, ![8, 512, 512]⟩
abbrev S8x64x262144 : Shape := ⟨3, ![8, 64, 262144]⟩
abbrev S8x1x262144 : Shape := ⟨3, ![8, 1, 262144]⟩
abbrev S8x64x19 : Shape := ⟨3, ![8, 64, 19]⟩
abbrev S8x1x19 : Shape := ⟨3, ![8, 1, 19]⟩
abbrev S1x64x16384 : Shape := ⟨3, ![1, 64, 16384]⟩
abbrev S1x1x16384 : Shape := ⟨3, ![1, 1, 16384]⟩
abbrev S1x64x19 : Shape := ⟨3, ![1, 64, 19]⟩
abbrev S1x1x19 : Shape := ⟨3, ![1, 1, 19]⟩
abbrev S64x19 : Shape := ⟨2, ![64, 19]⟩
abbrev S1x19 : Shape := ⟨2, ![1, 19]⟩
abbrev S64x16384 : Shape := ⟨2, ![64, 16384]⟩
abbrev S1x16384 : Shape := ⟨2, ![1, 16384]⟩
abbrev S19x16384 : Shape := ⟨2, ![19, 16384]⟩
abbrev S_ : Shape := ⟨0, ![]⟩
abbrev S19x64 : Shape := ⟨2, ![19, 64]⟩
abbrev S19 : Shape := ⟨1, ![19]⟩
abbrev S19x1 : Shape := ⟨2, ![19, 1]⟩
abbrev S19x19 : Shape := ⟨2, ![19, 19]⟩

abbrev nBuf : Space → Nat
  | .hbm => 46
  | .vmem => 8
  | .smem => 0
  | _ => 0

abbrev bufTy : (tb : Table) → Fin (tcTables nBuf tb) → BufTy
  | .hbm, ⟨0, _⟩ => ⟨S8x64x512x512, .f32⟩
  | .hbm, ⟨1, _⟩ => ⟨S8x512x512, .i32⟩
  | .hbm, ⟨2, _⟩ => ⟨S8x64x262144, .f32⟩
  | .hbm, ⟨3, _⟩ => ⟨S8x1x262144, .i32⟩
  | .hbm, ⟨4, _⟩ => ⟨S8x64x19, .f32⟩
  | .hbm, ⟨5, _⟩ => ⟨S8x1x19, .f32⟩
  | .hbm, ⟨6, _⟩ => ⟨S_, .f32⟩
  | .hbm, ⟨7, _⟩ => ⟨S64x19, .f32⟩
  | .hbm, ⟨8, _⟩ => ⟨S19x64, .f32⟩
  | .hbm, ⟨9, _⟩ => ⟨S_, .f32⟩
  | .hbm, ⟨10, _⟩ => ⟨S19, .f32⟩
  | .hbm, ⟨11, _⟩ => ⟨S_, .f32⟩
  | .hbm, ⟨12, _⟩ => ⟨S19, .f32⟩
  | .hbm, ⟨13, _⟩ => ⟨S19, .f32⟩
  | .hbm, ⟨14, _⟩ => ⟨S19x1, .f32⟩
  | .hbm, ⟨15, _⟩ => ⟨S19x64, .f32⟩
  | .hbm, ⟨16, _⟩ => ⟨S19x64, .f32⟩
  | .hbm, ⟨17, _⟩ => ⟨S19x64, .f32⟩
  | .hbm, ⟨18, _⟩ => ⟨S_, .f32⟩
  | .hbm, ⟨19, _⟩ => ⟨S19, .f32⟩
  | .hbm, ⟨20, _⟩ => ⟨S19, .f32⟩
  | .hbm, ⟨21, _⟩ => ⟨S_, .f32⟩
  | .hbm, ⟨22, _⟩ => ⟨S19, .f32⟩
  | .hbm, ⟨23, _⟩ => ⟨S19, .f32⟩
  | .hbm, ⟨24, _⟩ => ⟨S19x1, .f32⟩
  | .hbm, ⟨25, _⟩ => ⟨S19x64, .f32⟩
  | .hbm, ⟨26, _⟩ => ⟨S19x64, .f32⟩
  | .hbm, ⟨27, _⟩ => ⟨S64x19, .f32⟩
  | .hbm, ⟨28, _⟩ => ⟨S19x19, .f32⟩
  | .hbm, ⟨29, _⟩ => ⟨S19x19, .i32⟩
  | .hbm, ⟨30, _⟩ => ⟨S19x19, .i32⟩
  | .hbm, ⟨31, _⟩ => ⟨S_, .i32⟩
  | .hbm, ⟨32, _⟩ => ⟨S19x19, .i32⟩
  | .hbm, ⟨33, _⟩ => ⟨S19x19, .i32⟩
  | .hbm, ⟨34, _⟩ => ⟨S19x19, .i1⟩
  | .hbm, ⟨35, _⟩ => ⟨S_, .f32⟩
  | .hbm, ⟨36, _⟩ => ⟨S19x19, .f32⟩
  | .hbm, ⟨37, _⟩ => ⟨S19x19, .f32⟩
  | .hbm, ⟨38, _⟩ => ⟨S_, .f32⟩
  | .hbm, ⟨39, _⟩ => ⟨S19x19, .f32⟩
  | .hbm, ⟨40, _⟩ => ⟨S19x19, .f32⟩
  | .hbm, ⟨41, _⟩ => ⟨S19x19, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x64x16384, .f32⟩
  | .local _ .vmem, ⟨1, _⟩ => ⟨S1x64x16384, .f32⟩
  | .local _ .vmem, ⟨2, _⟩ => ⟨S1x1x16384, .i32⟩
  | .local _ .vmem, ⟨3, _⟩ => ⟨S1x1x16384, .i32⟩
  | .local _ .vmem, ⟨4, _⟩ => ⟨S1x64x19, .f32⟩
  | .local _ .vmem, ⟨5, _⟩ => ⟨S1x64x19, .f32⟩
  | .local _ .vmem, ⟨6, _⟩ => ⟨S1x1x19, .f32⟩
  | .local _ .vmem, ⟨7, _⟩ => ⟨S1x1x19, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x64x512x512_S8x64x262144 : S8x64x512x512.ShapeCasts S8x64x262144
  shapeCasts_S8x512x512_S8x1x262144 : S8x512x512.ShapeCasts S8x1x262144
  inb_S1x64x19_S1x64x19_0_0_0 : ∀ a, (![0, 0, 0] : Fin 3 → Nat) a + S1x64x19.size a ≤ S1x64x19.size a
  h_S1x64x19 : 0 < S1x64x19.numel
  shapeCasts_S1x64x19_S64x19 : S1x64x19.ShapeCasts S64x19
  shapeCasts_S64x19_S1x64x19 : S64x19.ShapeCasts S1x64x19
  inb_S1x1x19_S1x1x19_0_0_0 : ∀ a, (![0, 0, 0] : Fin 3 → Nat) a + S1x1x19.size a ≤ S1x1x19.size a
  h_S1x1x19 : 0 < S1x1x19.numel
  shapeCasts_S1x1x19_S1x19 : S1x1x19.ShapeCasts S1x19
  shapeCasts_S1x19_S1x1x19 : S1x19.ShapeCasts S1x1x19
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  shapeCasts_S1x16384_S1x16384 : S1x16384.ShapeCasts S1x16384
  broadcasts_S1x16384_S19x16384 : S1x16384.Broadcasts S19x16384
  iota_S19x16384_d0_w32 : S19x16384.Iotas .tc 32 [0]
  natLt_1_32 : 1 < 32
  bitsLt_bf16_f32 : FTy.bits .bf16 < FTy.bits .f32
  reducesTo_S8x64x19_S64x19_d0 : S8x64x19.ReducesTo [0] S64x19
  h_S_ : 0 < S_.numel
  transposes_S64x19_S19x64_1_0 : S64x19.Transposes [1, 0] S19x64
  reducesTo_S8x1x19_S19_d0_1 : S8x1x19.ReducesTo [0, 1] S19
  bcast_S_S19 : S_.BroadcastsInDim S19 (![] : Fin 0 → Fin S19.rank)
  bcast_S19_S19x1_0 : S19.BroadcastsInDim S19x1 (![0] : Fin 1 → Fin S19x1.rank)
  bcast_S19x1_S19x64_0_1 : S19x1.BroadcastsInDim S19x64 (![0, 1] : Fin 2 → Fin S19x64.rank)
  reducesTo_S19x64_S19_d1 : S19x64.ReducesTo [1] S19
  transposes_S19x64_S64x19_1_0 : S19x64.Transposes [1, 0] S64x19
  bcast_S_S19x19 : S_.BroadcastsInDim S19x19 (![] : Fin 0 → Fin S19x19.rank)
  reducesTo_S19x19_S_d0_1 : S19x19.ReducesTo [0, 1] S_
  dot_S64x16384_S19x16384_S64x19_1_1_0_0_n_n_wf : DotDims.WF S64x16384 S19x16384 S64x19 [1] [1] [0] [0] [] []
  dot_S1x16384_S19x16384_S1x19_1_1_0_0_n_n_wf : DotDims.WF S1x16384 S19x16384 S1x19 [1] [1] [0] [0] [] []
  dot_S19x64_S64x19_S19x19_1_0_0_1_n_n_wf : DotDims.WF S19x64 S64x19 S19x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S8x64x262144.size a
  hwx0_0 : ∀ i : grid0.Coords, EltTy.bits .f32 = 32 ∨ (Rect.block (s := S8x64x262144) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S8x1x262144.size a
  hwx0_1 : ∀ i : grid0.Coords, EltTy.bits .i32 = 32 ∨ (Rect.block (s := S8x1x262144) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x19.size a ≤ S8x64x19.size a
  hwx0_2 : ∀ i : grid0.Coords, EltTy.bits .f32 = 32 ∨ (Rect.block (s := S8x64x19) S1x64x19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x19.size a ≤ S8x1x19.size a
  hwx0_3 : ∀ i : grid0.Coords, EltTy.bits .f32 = 32 ∨ (Rect.block (s := S8x1x19) S1x1x19.size (cc0_transform_3 i) (hinb0_3 i)).WholeWords (EltTy.packing .f32)

variable [Facts₀]

def dot_S64x16384_S19x16384_S64x19_1_1_0_0_n_n : DotDims S64x16384 S19x16384 S64x19 where
  lhsContracting := [1]
  rhsContracting := [1]
  lhsNonContracting := [0]
  rhsNonContracting := [0]
  lhsBatch := []
  rhsBatch := []
  wf := dot_S64x16384_S19x16384_S64x19_1_1_0_0_n_n_wf
def dot_S1x16384_S19x16384_S1x19_1_1_0_0_n_n : DotDims S1x16384 S19x16384 S1x19 where
  lhsContracting := [1]
  rhsContracting := [1]
  lhsNonContracting := [0]
  rhsNonContracting := [0]
  lhsBatch := []
  rhsBatch := []
  wf := dot_S1x16384_S19x16384_S1x19_1_1_0_0_n_n_wf
def dot_S19x64_S64x19_S19x19_1_0_0_1_n_n : DotDims S19x64 S64x19 S19x19 where
  lhsContracting := [1]
  rhsContracting := [0]
  lhsNonContracting := [0]
  rhsNonContracting := [1]
  lhsBatch := []
  rhsBatch := []
  wf := dot_S19x64_S64x19_S19x19_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x19.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x19.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x512x512 : Shape := ⟨4, ![8, 64, 512, 512]⟩
abbrev S8x512x512 : Shape := ⟨3, ![8, 512, 512]⟩
abbrev S8x512x512x64 : Shape := ⟨4, ![8, 512, 512, 64]⟩
abbrev S2097152x64 : Shape := ⟨2, ![2097152, 64]⟩
abbrev S2097152 : Shape := ⟨1, ![2097152]⟩
abbrev S_ : Shape := ⟨0, ![]⟩
abbrev S19x64 : Shape := ⟨2, ![19, 64]⟩
abbrev S2097152x1 : Shape := ⟨2, ![2097152, 1]⟩
abbrev S19 : Shape := ⟨1, ![19]⟩
abbrev S19x1 : Shape := ⟨2, ![19, 1]⟩
abbrev S64x19 : Shape := ⟨2, ![64, 19]⟩
abbrev S19x19 : Shape := ⟨2, ![19, 19]⟩

abbrev nBuf : Space → Nat
  | .hbm => 50
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S8x512x512, .i32⟩
  | .hbm, ⟨2, _⟩ => ⟨S8x512x512x64, .f32⟩
  | .hbm, ⟨3, _⟩ => ⟨S2097152x64, .f32⟩
  | .hbm, ⟨4, _⟩ => ⟨S2097152, .i32⟩
  | .hbm, ⟨5, _⟩ => ⟨S_, .f32⟩
  | .hbm, ⟨6, _⟩ => ⟨S19x64, .f32⟩
  | .hbm, ⟨7, _⟩ => ⟨S2097152x1, .i32⟩
  | .hbm, ⟨8, _⟩ => ⟨S19x64, .f32⟩
  | .hbm, ⟨9, _⟩ => ⟨S_, .f32⟩
  | .hbm, ⟨10, _⟩ => ⟨S2097152, .f32⟩
  | .hbm, ⟨11, _⟩ => ⟨S_, .f32⟩
  | .hbm, ⟨12, _⟩ => ⟨S19, .f32⟩
  | .hbm, ⟨13, _⟩ => ⟨S2097152x1, .i32⟩
  | .hbm, ⟨14, _⟩ => ⟨S19, .f32⟩
  | .hbm, ⟨15, _⟩ => ⟨S_, .f32⟩
  | .hbm, ⟨16, _⟩ => ⟨S19, .f32⟩
  | .hbm, ⟨17, _⟩ => ⟨S19, .f32⟩
  | .hbm, ⟨18, _⟩ => ⟨S19x1, .f32⟩
  | .hbm, ⟨19, _⟩ => ⟨S19x64, .f32⟩
  | .hbm, ⟨20, _⟩ => ⟨S19x64, .f32⟩
  | .hbm, ⟨21, _⟩ => ⟨S19x64, .f32⟩
  | .hbm, ⟨22, _⟩ => ⟨S_, .f32⟩
  | .hbm, ⟨23, _⟩ => ⟨S19, .f32⟩
  | .hbm, ⟨24, _⟩ => ⟨S19, .f32⟩
  | .hbm, ⟨25, _⟩ => ⟨S_, .f32⟩
  | .hbm, ⟨26, _⟩ => ⟨S19, .f32⟩
  | .hbm, ⟨27, _⟩ => ⟨S19, .f32⟩
  | .hbm, ⟨28, _⟩ => ⟨S19x1, .f32⟩
  | .hbm, ⟨29, _⟩ => ⟨S19x64, .f32⟩
  | .hbm, ⟨30, _⟩ => ⟨S19x64, .f32⟩
  | .hbm, ⟨31, _⟩ => ⟨S64x19, .f32⟩
  | .hbm, ⟨32, _⟩ => ⟨S19x19, .f32⟩
  | .hbm, ⟨33, _⟩ => ⟨S19x19, .i32⟩
  | .hbm, ⟨34, _⟩ => ⟨S19x19, .i32⟩
  | .hbm, ⟨35, _⟩ => ⟨S_, .i32⟩
  | .hbm, ⟨36, _⟩ => ⟨S19x19, .i32⟩
  | .hbm, ⟨37, _⟩ => ⟨S19x19, .i32⟩
  | .hbm, ⟨38, _⟩ => ⟨S19x19, .i1⟩
  | .hbm, ⟨39, _⟩ => ⟨S_, .f32⟩
  | .hbm, ⟨40, _⟩ => ⟨S19x19, .f32⟩
  | .hbm, ⟨41, _⟩ => ⟨S19x19, .f32⟩
  | .hbm, ⟨42, _⟩ => ⟨S_, .f32⟩
  | .hbm, ⟨43, _⟩ => ⟨S19x19, .f32⟩
  | .hbm, ⟨44, _⟩ => ⟨S19x19, .f32⟩
  | .hbm, ⟨45, _⟩ => ⟨S19x19, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S8x64x512x512_S8x512x512x64_0_2_3_1 : S8x64x512x512.Transposes [0, 2, 3, 1] S8x512x512x64
  shapeCasts_S8x512x512x64_S2097152x64 : S8x512x512x64.ShapeCasts S2097152x64
  shapeCasts_S8x512x512_S2097152 : S8x512x512.ShapeCasts S2097152
  bcast_S_S19x64 : S_.BroadcastsInDim S19x64 (![] : Fin 0 → Fin S19x64.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S19 : S_.BroadcastsInDim S19 (![] : Fin 0 → Fin S19.rank)
  bcast_S19_S19x1_0 : S19.BroadcastsInDim S19x1 (![0] : Fin 1 → Fin S19x1.rank)
  bcast_S19x1_S19x64_0_1 : S19x1.BroadcastsInDim S19x64 (![0, 1] : Fin 2 → Fin S19x64.rank)
  reducesTo_S19x64_S19_d1 : S19x64.ReducesTo [1] S19
  h_S_ : 0 < S_.numel
  transposes_S19x64_S64x19_1_0 : S19x64.Transposes [1, 0] S64x19
  bcast_S_S19x19 : S_.BroadcastsInDim S19x19 (![] : Fin 0 → Fin S19x19.rank)
  reducesTo_S19x19_S_d0_1 : S19x19.ReducesTo [0, 1] S_
  scatter_S19x64_S2097152x1_S2097152x64_1_0_0_1_wf : ScatterDims.WF S19x64 S2097152x1 S2097152x64 [1] [0] [0] 1
  scatter_S19_S2097152x1_S2097152_n_0_0_1_wf : ScatterDims.WF S19 S2097152x1 S2097152 [] [0] [0] 1
  dot_S19x64_S64x19_S19x19_1_0_0_1_n_n_wf : DotDims.WF S19x64 S64x19 S19x19 [1] [0] [0] [1] [] []

variable [Facts₀]

def scatter_S19x64_S2097152x1_S2097152x64_1_0_0_1 : ScatterDims S19x64 S2097152x1 S2097152x64 where
  updateWindowDims := [1]
  insertedWindowDims := [0]
  scatterDimsToOperandDims := [0]
  indexVectorDim := 1
  wf := scatter_S19x64_S2097152x1_S2097152x64_1_0_0_1_wf
def scatter_S19_S2097152x1_S2097152_n_0_0_1 : ScatterDims S19 S2097152x1 S2097152 where
  updateWindowDims := []
  insertedWindowDims := [0]
  scatterDimsToOperandDims := [0]
  indexVectorDim := 1
  wf := scatter_S19_S2097152x1_S2097152_n_0_0_1_wf
def dot_S19x64_S64x19_S19x19_1_0_0_1_n_n : DotDims S19x64 S64x19 S19x19 where
  lhsContracting := [1]
  rhsContracting := [0]
  lhsNonContracting := [0]
  rhsNonContracting := [1]
  lhsBatch := []
  rhsBatch := []
  wf := dot_S19x64_S64x19_S19x19_1_0_0_1_n_n_wf

class Facts : Prop extends Facts₀ where

variable [Facts]
-- ==== Proof.Pieces.lean ====
/-
  What one grid step leaves in the two output blocks, as values.

  The body keeps, for the batch entry its grid row works on, a [64, 19] block of per-class feature sums and a [1, 19]
  block of per-class counts. A step of the first kind (the first tile of a batch entry) stores zeros, reads them back
  and stores "zero block + this tile's contribution"; a step of the second kind stores "what the step before left +
  this tile's contribution". Each output block is covered by the step's last store, so what the step leaves is that
  store's value: the contribution function of the skeleton applied to the two input blocks and to the block read back.
-/
import proofs.«415046_j19516331393756_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Centroid.KI

open Cert.KernelIdeal Cert.KernelIdeal.Gen

variable {F : FTy → Type} [FloatOps F]

/-- The offsets of every access of the body: the origin. -/
theorem hz3 : (![0, 0, 0] : Fin 3 → Nat) = fun _ => 0 := funext fun a => by fin_cases a <;> rfl

/-- A later tile: the sums block becomes the block of the step before plus this tile's contribution. -/
theorem out_B_2 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x19 .f32) (h4 : a4.IsWhole)
    (a5 : Memref sig .tc .vmem S1x1x19 .f32) (h5 : a5.IsWhole) (hc : ¬cond0_0 i)
    (x0 : Vec F S1x64x16384 .f32) (x1 : Vec F S1x1x16384 .i32) (xo2 : Vec F S1x64x19 .f32) (xo3 : Vec F S1x1x19 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x64x16384) hz3, View.ld_unit_zero (S := S1x1x16384) hz3,
    View.ld_unit_zero (S := S1x64x19) hz3, View.ld_unit_zero (S := S1x1x19) hz3]

/-- A later tile: the counts block becomes the block of the step before plus this tile's counts. -/
theorem out_B_3 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x19 .f32) (h4 : a4.IsWhole)
    (a5 : Memref sig .tc .vmem S1x1x19 .f32) (h5 : a5.IsWhole) (hc : ¬cond0_0 i)
    (x0 : Vec F S1x64x16384 .f32) (x1 : Vec F S1x1x16384 .i32) (xo2 : Vec F S1x64x19 .f32) (xo3 : Vec F S1x1x19 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x64x16384) hz3, View.ld_unit_zero (S := S1x1x16384) hz3,
    View.ld_unit_zero (S := S1x64x19) hz3, View.ld_unit_zero (S := S1x1x19) hz3]

/-- A first tile: the sums block becomes the zero block plus this tile's contribution (the zeros are stored, then
    read back by the accumulating store). -/
theorem out_A_2 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x19 .f32) (h4 : a4.IsWhole)
    (a5 : Memref sig .tc .vmem S1x1x19 .f32) (h5 : a5.IsWhole) (hc : cond0_0 i)
    (x0 : Vec F S1x64x16384 .f32) (x1 : Vec F S1x1x16384 .i32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x19) hz3, View.readCov_unit_zero (S := S1x64x19) _ hz3]
  simp only [View.readAt_eq_ld, h2.read_unread, h3.read_unread, h4.read_unread, h5.read_unread,
    View.ld_unit_zero (S := S1x64x16384) hz3, View.ld_unit_zero (S := S1x1x16384) hz3,
    View.ld_unit_zero (S := S1x64x19) hz3, View.ld_unit_zero (S := S1x1x19) hz3]

/-- A first tile: the counts block becomes the zero block plus this tile's counts. -/
theorem out_A_3 (c : Dev nD) (i : grid0.Coords) (a2 : Memref sig .tc .vmem S1x64x16384 .f32) (h2 : a2.IsWhole)
    (a3 : Memref sig .tc .vmem S1x1x16384 .i32) (h3 : a3.IsWhole) (a4 : Memref sig .tc .vmem S1x64x19 .f32) (h4 : a4.IsWhole)
    (a5 : Memref sig .tc .vmem S1x1x19 .f32) (h5 : a5.IsWhole) (hc : cond0_0 i)
    (x0 : Vec F S1x64x16384 .f32) (x1 : Vec F S1x1x16384 .i32) :
    out0_A_3 c i a2 h2 a3 h3 a4 h4 a5 h5 hc x0 x1 = k0_pay5 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x19) hz3, View.readCov_unit_zero (S := S1x1x19) _ hz3]
  simp only [View.readAt_eq_ld, h2.read_unread, h3.read_unread, h4.read_unread, h5.read_unread,
    View.ld_unit_zero (S := S1x64x16384) hz3, View.ld_unit_zero (S := S1x1x16384) hz3,
    View.ld_unit_zero (S := S1x64x19) hz3, View.ld_unit_zero (S := S1x1x19) hz3]

end Cert.Centroid.KI

end
-- ==== Proof.Blocks.lean ====
/-
  The input blocks of a grid point, and the arrays they are cut from, read at an index.

  Before the grid the program re-lays the features [8, 64, 512, 512] as [8, 64, 262144] and the labels [8, 512, 512]
  as [8, 1, 262144] (row-major: pixel `(h, w)` is flat pixel `512 h + w`). Point `t` of the 8 × 16 grid reads, of batch
  entry `t / 16`, the tile of the 16384 flat pixels from `16384 (t % 16)` on: lane `l` of the tile is flat pixel
  `16384 (t % 16) + l`.
-/
import proofs.«415046_j19516331393756_3_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

variable {F : FTy → Type} [FloatOps F]
variable (m : (ℓ : Loc nD τ sig) → Buf (Elt F) ℓ)

/-- The re-laid features as the grid finds them. -/
abbrev xarr (c : Dev nD) : Vec F S8x64x262144 .f32 := V m c main_v0
/-- The re-laid labels as the grid finds them. -/
abbrev tarr (c : Dev nD) : Vec F S8x1x262144 .i32 := V m c main_v1
/-- The feature tile of point `t`. -/
abbrev xblk (c : Dev nD) (t : Fin cfg0.N) : Vec F S1x64x16384 .f32 := iblk m c 0 t
/-- The label tile of point `t`. -/
abbrev tblk (c : Dev nD) (t : Fin cfg0.N) : Vec F S1x1x16384 .i32 := iblk m c 1 t

/-- Where the two input windows' blocks sit at point `t`: batch entry `t / 16`, tile `t % 16` (decided over the grid). -/
theorem idx0 : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)
theorem idx1 : ∀ t : Fin cfg0.N, win0_1.index t 0 = t.val / 16 ∧ win0_1.index t 1 = 0 ∧ win0_1.index t 2 = t.val % 16 :=
  (by decide +kernel : ∀ t : Fin grid0.N, win0_1.index t 0 = t.val / 16 ∧ win0_1.index t 1 = 0 ∧ win0_1.index t 2 = t.val % 16)

/-- Lane `l` of feature `cc` of the tile of point `t` is flat pixel `16384 (t % 16) + l` of entry `t / 16`. -/
theorem xblk_apply (c : Dev nD) (t : Fin cfg0.N) (cc : Fin 64) (l : Fin 16384) (b : Fin 8) (p : Fin 262144)
    (hb : b.val = t.val / 16) (hp : p.val = t.val % 16 * 16384 + l.val) :
    xblk m c t (ix3 (0 : Fin 1) cc l) = xarr m c (ix3 b cc p) := by
  unfold xblk iblk
  rw [View.read_apply]
  show V m c main_v0 _ = V m c main_v0 _
  congr 1
  funext a
  apply Fin.ext
  obtain ⟨i0, i1, i2⟩ := idx0 t
  match a with
  | ⟨0, _⟩ => show win0_0.index t 0 * 1 + 1 * 0 = b.val; rw [i0, hb]; omega
  | ⟨1, _⟩ => show win0_0.index t 1 * 64 + 1 * cc.val = cc.val; rw [i1]; omega
  | ⟨2, _⟩ => show win0_0.index t 2 * 16384 + 1 * l.val = p.val; rw [i2, hp]; omega

/-- Lane `l` of the label tile of point `t` is flat pixel `16384 (t % 16) + l` of entry `t / 16`. -/
theorem tblk_apply (c : Dev nD) (t : Fin cfg0.N) (l : Fin 16384) (b : Fin 8) (p : Fin 262144)
    (hb : b.val = t.val / 16) (hp : p.val = t.val % 16 * 16384 + l.val) :
    tblk m c t (ix3 (0 : Fin 1) (0 : Fin 1) l) = tarr m c (ix3 b (0 : Fin 1) p) := by
  unfold tblk iblk
  rw [View.read_apply]
  show V m c main_v1 _ = V m c main_v1 _
  congr 1
  funext a
  apply Fin.ext
  obtain ⟨i0, i1, i2⟩ := idx1 t
  match a with
  | ⟨0, _⟩ => show win0_1.index t 0 * 1 + 1 * 0 = b.val; rw [i0, hb]; omega
  | ⟨1, _⟩ => show win0_1.index t 1 * 1 + 1 * 0 = 0; rw [i1]
  | ⟨2, _⟩ => show win0_1.index t 2 * 16384 + 1 * l.val = p.val; rw [i2, hp]; omega

/-- The features as the grid finds them are the argument re-laid. -/
theorem xarr_eq (c : Dev nD) :
    xarr m c = shapeCast S8x64x262144 (m ((c : Thread nD τ).loc main_arg0)) shapeCasts_S8x64x512x512_S8x64x262144 := by
  show StableHlo.after hostOps0 (fun b => m (c, b)) (Proc.devRef .tc main_v0) = _
  after_results
  rfl

/-- The labels as the grid finds them are the argument re-laid. -/
theorem tarr_eq (c : Dev nD) :
    tarr m c = shapeCast S8x1x262144 (m ((c : Thread nD τ).loc main_arg1)) shapeCasts_S8x512x512_S8x1x262144 := by
  show StableHlo.after hostOps0 (fun b => m (c, b)) (Proc.devRef .tc main_v1) = _
  after_results
  rfl

/-- Flat pixel `512 h + w` of the re-laid features is pixel `(h, w)` of the argument. -/
theorem xarr_apply (c : Dev nD) (b : Fin 8) (cc : Fin 64) (p : Fin 262144) (h w : Fin 512) (hp : p.val = h.val * 512 + w.val) :
    xarr m c (ix3 b cc p) = m ((c : Thread nD τ).loc main_arg0) (ix4 b cc h w) := by
  rw [xarr_eq]
  exact shapeCast_apply _ shapeCasts_S8x64x512x512_S8x64x262144 _ _ (by
    rw [Shape.rowMajor_val_four, Shape.rowMajor_val_three]
    show ((b.val * 64 + cc.val) * 512 + h.val) * 512 + w.val = (b.val * 64 + cc.val) * 262144 + p.val
    rw [hp]; omega)

/-- Flat pixel `512 h + w` of the re-laid labels is pixel `(h, w)` of the argument. -/
theorem tarr_apply (c : Dev nD) (b : Fin 8) (p : Fin 262144) (h w : Fin 512) (hp : p.val = h.val * 512 + w.val) :
    tarr m c (ix3 b (0 : Fin 1) p) = m ((c : Thread nD τ).loc main_arg1) (ix3 b h w) := by
  rw [tarr_eq]
  exact shapeCast_apply _ shapeCasts_S8x512x512_S8x1x262144 _ _ (by
    rw [Shape.rowMajor_val_three, Shape.rowMajor_val_three]
    show (b.val * 512 + h.val) * 512 + w.val = (b.val * 1 + 0) * 262144 + p.val
    rw [hp]; omega)

end Cert.Centroid.KI

end
-- ==== Proof.AccStep.lean ====
/-
  What the two output blocks hold after a grid point, one step at a time.

  The grid has 8 × 16 points; point `t` works on batch entry `t / 16` and tile `t % 16`. After a point with
  `t % 16 = 0` the sums block is "zero block + the tile's contribution"; after any other point it is "the block after
  point `t - 1` + the tile's contribution" (the block is not written back in between); the same for the counts block.
-/
import proofs.«415046_j19516331393756_3_alg».proof.Proof.Pieces
import proofs.«415046_j19516331393756_3_alg».proof.Proof.Blocks

noncomputable section

open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

variable {F : FTy → Type} [FloatOps F]
variable (m : (ℓ : Loc nD τ sig) → Buf (Elt F) ℓ)

/-- The sums block after point `n`. -/
abbrev acc2 (c : Dev nD) (n : ℕ) (h : n < cfg0.N) : Vec F S1x64x19 .f32 := (outsAt0 m c n h).1
/-- The counts block after point `n`. -/
abbrev acc3 (c : Dev nD) (n : ℕ) (h : n < cfg0.N) : Vec F S1x1x19 .f32 := (outsAt0 m c n h).2

/-- After a first tile: the zero block plus the tile's contribution. -/
theorem acc2_A (c : Dev nD) (t : Fin cfg0.N) (h0 : t.val % 16 = 0) :
    acc2 m c t.val t.isLt = k0_pay4 (xblk m c t) (tblk m c t) (k0_pay1 (F := F)) := by
  show (outsAt0 m c t.val t.isLt).1 = _
  rw [outsAt0_A m c t h0]
  dsimp only
  exact out_A_2 (F := F) c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- After a first tile: the zero counts plus the tile's counts. -/
theorem acc3_A (c : Dev nD) (t : Fin cfg0.N) (h0 : t.val % 16 = 0) :
    acc3 m c t.val t.isLt = k0_pay5 (tblk m c t) (k0_pay2 (F := F)) := by
  show (outsAt0 m c t.val t.isLt).2 = _
  rw [outsAt0_A m c t h0]
  dsimp only
  exact out_A_3 (F := F) c (grid0.coords t) (ms0_0 t) (hs0_0 t) (ms0_1 t) (hs0_1 t) (ms0_2 t) (hs0_2 t) (ms0_3 t) (hs0_3 t) ((hcond0_0 t).mpr h0) (iblk m c 0 t) (iblk m c 1 t)

/-- After a later tile: what the point before left plus the tile's contribution. -/
theorem acc2_B (c : Dev nD) (t : Fin cfg0.N) (h0 : ¬t.val % 16 = 0) :
    acc2 m c t.val t.isLt
      = k0_pay4 (xblk m c t) (tblk m c t) (acc2 m c (t.val - 1) (Nat.lt_of_le_of_lt (Nat.sub_le _ _) t.isLt)) := by
  show (outsAt0 m c t.val t.isLt).1 = _
  rw [outsAt0_B m c t h0]
  dsimp only
  exact out_B_2 (F := F) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2

/-- After a later tile: what the point before left plus the tile's counts. -/
theorem acc3_B (c : Dev nD) (t : Fin cfg0.N) (h0 : ¬t.val % 16 = 0) :
    acc3 m c t.val t.isLt
      = k0_pay5 (tblk m c t) (acc3 m c (t.val - 1) (Nat.lt_of_le_of_lt (Nat.sub_le _ _) t.isLt)) := by
  show (outsAt0 m c t.val t.isLt).2 = _
  rw [outsAt0_B m c t h0]
  dsimp only
  exact out_B_3 (F := F) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2

end Cert.Centroid.KI

end
-- ==== Proof.Payload.lean ====
/-
  The values the kernel's body stores, read at an index, at the ideal values.

  One grid step holds a block of 16384 pixels: their features `x0 : [1, 64, 16384]` and their labels
  `x1 : [1, 1, 16384]`. The body builds the one-hot matrix of the labels, `[19, 16384]`: its entry at
  (class `k`, pixel `l`) is `1` when the label word at `l` is the word of `k`, and `0` otherwise. It
  multiplies the features by the transpose of that matrix, which for feature `c` and class `k` is the
  sum of the features `x0 c l` over the pixels `l` labelled `k`, and adds the product to the running
  block; and it multiplies a row of ones by the same, which counts the pixels labelled `k`, and adds
  that to the running counts. At the first grid step both running blocks are stored as zeros.
-/
import proofs.«415046_j19516331393756_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Mathlib.Tactic.NormNum

noncomputable section

open scoped BigOperators

namespace Cert.Centroid.Pay

open Cert.KernelIdeal Cert.KernelIdeal.Gen Idealize.ShloMosaic Idealize.ShloMosaic.ValueIdx

/-! ## The zero blocks of the first grid step -/

/-- The block of sums the first grid step stores is zero everywhere. -/
theorem pay1_apply (c : Fin 64) (k : Fin 19) : (k0_pay1 (F := Ideal)) (ix3 (0 : Fin 1) c k) = 0 := by
  unfold k0_pay1
  refine (shapeCast_ab_1ab_apply _ _ (0 : Fin 1) c k).trans ?_
  exact Ideal.ofBits_zero_f32

/-- The block of counts the first grid step stores is zero everywhere. -/
theorem pay2_apply (k : Fin 19) : (k0_pay2 (F := Ideal)) (ix3 (0 : Fin 1) (0 : Fin 1) k) = 0 := by
  unfold k0_pay2
  refine (shapeCast_ab_1ab_apply _ _ (0 : Fin 1) (0 : Fin 1) k).trans ?_
  exact Ideal.ofBits_zero_f32

/-! ## The one-hot matrix of the labels -/

/-- A 32-bit word is the word of a class number exactly when its unsigned value is that number. -/
theorem word_eq_iff (w : BitVec 32) (k : Fin 19) : BitVec.ofNat 32 k.val = w ↔ w.toNat = k.val := by
  have hk : k.val % 2 ^ 32 = k.val := Nat.mod_eq_of_lt (by have := k.isLt; omega)
  constructor
  · intro h; rw [← h, BitVec.toNat_ofNat, hk]
  · intro h; apply BitVec.eq_of_toNat_eq; rw [BitVec.toNat_ofNat, hk, h]

/-- The comparison of a class number's word with a label word, widened to 32 bits and read as a
    number, is `1` when the label's unsigned value is the class number and `0` otherwise. -/
theorem onehot_word (w : BitVec 32) (k : Fin 19) :
    (FloatOps.sitofp (F := Ideal) .f32 ((IntOp.cmpi .eq (BitVec.ofNat 32 k.val) w).setWidth 32) : EReal)
      = if w.toNat = k.val then 1 else 0 := by
  by_cases h : w.toNat = k.val
  · rw [if_pos h, StableHlo.Predicate.cmpi_eq_iff.mpr ((word_eq_iff w k).mpr h)]
    show ((((1#1 : BitVec 1).setWidth 32).toInt : ℝ) : EReal) = 1
    rw [show ((1#1 : BitVec 1).setWidth 32).toInt = 1 by decide, Int.cast_one, EReal.coe_one]
  · have h0 : IntOp.cmpi .eq (BitVec.ofNat 32 k.val) w = 0#1 :=
      eq_zero_of_ne_one fun h1 => h ((word_eq_iff w k).mp (StableHlo.Predicate.cmpi_eq_iff.mp h1))
    rw [if_neg h, h0]
    show ((((0#1 : BitVec 1).setWidth 32).toInt : ℝ) : EReal) = 0
    rw [show ((0#1 : BitVec 1).setWidth 32).toInt = 0 by decide, Int.cast_zero, EReal.coe_zero]

/-- The one-hot matrix at (class `k`, pixel `l`): `1` when pixel `l` is labelled `k`, else `0`. -/
theorem onehot_apply (x1 : Vec Ideal S1x1x16384 .i32) (k : Fin 19) (l : Fin 16384) :
    k0_pay3 (F := Ideal) x1 (ix2 k l)
      = if (x1 (ix3 (0 : Fin 1) (0 : Fin 1) l)).toNat = k.val then 1 else 0 := by
  unfold k0_pay3
  refine Eq.trans ?_ (onehot_word (x1 (ix3 (0 : Fin 1) (0 : Fin 1) l)) k)
  show FloatOps.sitofp (F := Ideal) .f32 ((IntOp.cmpi .eq
      (iota .tc S19x16384 32 [0] iota_S19x16384_d0_w32 (ix2 k l))
      (broadcastTo S19x16384 (shapeCast S1x16384 (shapeCast S1x16384 x1 shapeCasts_S1x1x16384_S1x16384)
        shapeCasts_S1x16384_S1x16384) broadcasts_S1x16384_S19x16384 (ix2 k l))).setWidth 32) = _
  rw [iota_single_apply, broadcastTo_1b_ab_apply, shapeCast_self, shapeCast_1ab_ab_apply]

/-! ## The two contractions over the pixels of the block -/

/-- The product of the features with the one-hot matrix contracts both operands' axis 1 (the pixel):
    the left operand is read at (row of the result, pixel), -/
theorem lhs_sum_0 (i : S64x19.Idx) (q : dot_S64x16384_S19x16384_S64x19_1_1_0_0_n_n.contr.Idx) :
    (dot_S64x16384_S19x16384_S64x19_1_1_0_0_n_n.lhsIdx i q 0).val = (i 0).val := by
  unfold DotDims.lhsIdx
  rw [dif_neg (show ¬(0 : Fin S64x16384.rank) ∈ dot_S64x16384_S19x16384_S64x19_1_1_0_0_n_n.lhsBatch by decide), dif_pos (show (0 : Fin S64x16384.rank) ∈ dot_S64x16384_S19x16384_S64x19_1_1_0_0_n_n.lhsNonContracting by decide)]
  rfl
theorem lhs_sum_1 (i : S64x19.Idx) (q : dot_S64x16384_S19x16384_S64x19_1_1_0_0_n_n.contr.Idx) :
    (dot_S64x16384_S19x16384_S64x19_1_1_0_0_n_n.lhsIdx i q 1).val = (q ⟨0, by decide⟩).val :=
  dot_S64x16384_S19x16384_S64x19_1_1_0_0_n_n.lhsIdx_val_of_single rfl i q
/-- and the right operand at (column of the result, pixel). -/
theorem rhs_sum_0 (i : S64x19.Idx) (q : dot_S64x16384_S19x16384_S64x19_1_1_0_0_n_n.contr.Idx) :
    (dot_S64x16384_S19x16384_S64x19_1_1_0_0_n_n.rhsIdx i q 0).val = (i 1).val := by
  unfold DotDims.rhsIdx
  rw [dif_neg (show ¬(0 : Fin S19x16384.rank) ∈ dot_S64x16384_S19x16384_S64x19_1_1_0_0_n_n.rhsBatch by decide), dif_pos (show (0 : Fin S19x16384.rank) ∈ dot_S64x16384_S19x16384_S64x19_1_1_0_0_n_n.rhsNonContracting by decide)]
  rfl
theorem rhs_sum_1 (i : S64x19.Idx) (q : dot_S64x16384_S19x16384_S64x19_1_1_0_0_n_n.contr.Idx) :
    (dot_S64x16384_S19x16384_S64x19_1_1_0_0_n_n.rhsIdx i q 1).val = (q ⟨0, by decide⟩).val :=
  dot_S64x16384_S19x16384_S64x19_1_1_0_0_n_n.rhsIdx_val_of_single rfl i q

/-- Into the zero accumulator, the product of a `[64, 16384]` matrix with the transpose of a
    `[19, 16384]` matrix is, at (`c`, `k`), the sum over the pixels of the products of the entries. -/
theorem matmul_sum_apply (A : FVec Ideal S64x16384 .bf16) (B : FVec Ideal S19x16384 .bf16) (c : Fin 64) (k : Fin 19) :
    matmul dot_S64x16384_S19x16384_S64x19_1_1_0_0_n_n none A B (constant (F := Ideal) S64x19 .f32 0x00000000#32) (ix2 c k)
      = ∑ l : Fin 16384, A (ix2 c l) * B (ix2 k l) := by
  simp only [matmul]
  rw [Ideal.matmul_constant_zero_apply, ← Equiv.sum_comp (ValueIdx.contrEquiv1 dot_S64x16384_S19x16384_S64x19_1_1_0_0_n_n 16384 rfl rfl).symm]
  refine Finset.sum_congr rfl fun l _ => ?_
  have hl := ValueIdx.contrEquiv1_symm_val dot_S64x16384_S19x16384_S64x19_1_1_0_0_n_n 16384 rfl rfl l
  have el : dot_S64x16384_S19x16384_S64x19_1_1_0_0_n_n.lhsIdx (ix2 c k) ((ValueIdx.contrEquiv1 dot_S64x16384_S19x16384_S64x19_1_1_0_0_n_n 16384 rfl rfl).symm l) = ix2 c l := funext fun a => Fin.ext (by
    match a with
    | ⟨0, _⟩ => exact lhs_sum_0 _ _
    | ⟨1, _⟩ => exact (lhs_sum_1 _ _).trans hl)
  have er : dot_S64x16384_S19x16384_S64x19_1_1_0_0_n_n.rhsIdx (ix2 c k) ((ValueIdx.contrEquiv1 dot_S64x16384_S19x16384_S64x19_1_1_0_0_n_n 16384 rfl rfl).symm l) = ix2 k l := funext fun a => Fin.ext (by
    match a with
    | ⟨0, _⟩ => exact rhs_sum_0 _ _
    | ⟨1, _⟩ => exact (rhs_sum_1 _ _).trans hl)
  rw [el, er]

/-- The product of the row of ones with the one-hot matrix contracts the same axes: the left operand is
    read at (row of the result, pixel), -/
theorem lhs_cnt_0 (i : S1x19.Idx) (q : dot_S1x16384_S19x16384_S1x19_1_1_0_0_n_n.contr.Idx) :
    (dot_S1x16384_S19x16384_S1x19_1_1_0_0_n_n.lhsIdx i q 0).val = (i 0).val := by
  unfold DotDims.lhsIdx
  rw [dif_neg (show ¬(0 : Fin S1x16384.rank) ∈ dot_S1x16384_S19x16384_S1x19_1_1_0_0_n_n.lhsBatch by decide), dif_pos (show (0 : Fin S1x16384.rank) ∈ dot_S1x16384_S19x16384_S1x19_1_1_0_0_n_n.lhsNonContracting by decide)]
  rfl
theorem lhs_cnt_1 (i : S1x19.Idx) (q : dot_S1x16384_S19x16384_S1x19_1_1_0_0_n_n.contr.Idx) :
    (dot_S1x16384_S19x16384_S1x19_1_1_0_0_n_n.lhsIdx i q 1).val = (q ⟨0, by decide⟩).val :=
  dot_S1x16384_S19x16384_S1x19_1_1_0_0_n_n.lhsIdx_val_of_single rfl i q
/-- and the right operand at (column of the result, pixel). -/
theorem rhs_cnt_0 (i : S1x19.Idx) (q : dot_S1x16384_S19x16384_S1x19_1_1_0_0_n_n.contr.Idx) :
    (dot_S1x16384_S19x16384_S1x19_1_1_0_0_n_n.rhsIdx i q 0).val = (i 1).val := by
  unfold DotDims.rhsIdx
  rw [dif_neg (show ¬(0 : Fin S19x16384.rank) ∈ dot_S1x16384_S19x16384_S1x19_1_1_0_0_n_n.rhsBatch by decide), dif_pos (show (0 : Fin S19x16384.rank) ∈ dot_S1x16384_S19x16384_S1x19_1_1_0_0_n_n.rhsNonContracting by decide)]
  rfl
theorem rhs_cnt_1 (i : S1x19.Idx) (q : dot_S1x16384_S19x16384_S1x19_1_1_0_0_n_n.contr.Idx) :
    (dot_S1x16384_S19x16384_S1x19_1_1_0_0_n_n.rhsIdx i q 1).val = (q ⟨0, by decide⟩).val :=
  dot_S1x16384_S19x16384_S1x19_1_1_0_0_n_n.rhsIdx_val_of_single rfl i q

/-- Into the zero accumulator, the product of a `[1, 16384]` row with the transpose of a `[19, 16384]`
    matrix is, at (`0`, `k`), the sum over the pixels of the products of the entries. -/
theorem matmul_cnt_apply (A : FVec Ideal S1x16384 .bf16) (B : FVec Ideal S19x16384 .bf16) (k : Fin 19) :
    matmul dot_S1x16384_S19x16384_S1x19_1_1_0_0_n_n none A B (constant (F := Ideal) S1x19 .f32 0x00000000#32) (ix2 (0 : Fin 1) k)
      = ∑ l : Fin 16384, A (ix2 (0 : Fin 1) l) * B (ix2 k l) := by
  simp only [matmul]
  rw [Ideal.matmul_constant_zero_apply, ← Equiv.sum_comp (ValueIdx.contrEquiv1 dot_S1x16384_S19x16384_S1x19_1_1_0_0_n_n 16384 rfl rfl).symm]
  refine Finset.sum_congr rfl fun l _ => ?_
  have hl := ValueIdx.contrEquiv1_symm_val dot_S1x16384_S19x16384_S1x19_1_1_0_0_n_n 16384 rfl rfl l
  have el : dot_S1x16384_S19x16384_S1x19_1_1_0_0_n_n.lhsIdx (ix2 (0 : Fin 1) k) ((ValueIdx.contrEquiv1 dot_S1x16384_S19x16384_S1x19_1_1_0_0_n_n 16384 rfl rfl).symm l) = ix2 (0 : Fin 1) l := funext fun a => Fin.ext (by
    match a with
    | ⟨0, _⟩ => exact lhs_cnt_0 _ _
    | ⟨1, _⟩ => exact (lhs_cnt_1 _ _).trans hl)
  have er : dot_S1x16384_S19x16384_S1x19_1_1_0_0_n_n.rhsIdx (ix2 (0 : Fin 1) k) ((ValueIdx.contrEquiv1 dot_S1x16384_S19x16384_S1x19_1_1_0_0_n_n 16384 rfl rfl).symm l) = ix2 k l := funext fun a => Fin.ext (by
    match a with
    | ⟨0, _⟩ => exact rhs_cnt_0 _ _
    | ⟨1, _⟩ => exact (rhs_cnt_1 _ _).trans hl)
  rw [el, er]

/-! ## The two stored blocks of every grid step -/

/-- The block of sums a grid step stores: the running block plus, for feature `c` and class `k`, the
    sum of the features `x0 c l` over the pixels `l` of the block labelled `k`. -/
theorem pay4_apply (x0 : Vec Ideal S1x64x16384 .f32) (x1 : Vec Ideal S1x1x16384 .i32) (xo : Vec Ideal S1x64x19 .f32)
    (c : Fin 64) (k : Fin 19) :
    k0_pay4 (F := Ideal) x0 x1 xo (ix3 (0 : Fin 1) c k)
      = xo (ix3 (0 : Fin 1) c k)
        + ∑ l : Fin 16384, (if (x1 (ix3 (0 : Fin 1) (0 : Fin 1) l)).toNat = k.val then x0 (ix3 (0 : Fin 1) c l) else 0) := by
  unfold k0_pay4
  refine (shapeCast_ab_1ab_apply _ _ (0 : Fin 1) c k).trans ?_
  rw [addf_apply, shapeCast_1ab_ab_apply, matmul_sum_apply]
  refine congrArg (xo (ix3 (0 : Fin 1) c k) + ·) (Finset.sum_congr rfl fun l _ => ?_)
  rw [truncf_apply, shapeCast_1ab_ab_apply, onehot_apply, mul_ite, mul_one, mul_zero]

/-- The bf16 word `0x3F80` denotes `1`. -/
theorem ofBits_bf16_3F80 : Ideal.ofBits .bf16 0x3F80#16 = 1 := by
  have h : Ideal.ofBits .bf16 0x3F80#16 = ((1 : ℝ) : EReal) := by
    simp [Ideal.ofBits, Ideal.ieee, -EReal.coe_mul] <;> norm_num
  rw [h, EReal.coe_one]

/-- The block of counts a grid step stores: the running counts plus, for class `k`, the number of the
    pixels of the block labelled `k`. -/
theorem pay5_apply (x1 : Vec Ideal S1x1x16384 .i32) (xo : Vec Ideal S1x1x19 .f32) (k : Fin 19) :
    k0_pay5 (F := Ideal) x1 xo (ix3 (0 : Fin 1) (0 : Fin 1) k)
      = xo (ix3 (0 : Fin 1) (0 : Fin 1) k)
        + ∑ l : Fin 16384, (if (x1 (ix3 (0 : Fin 1) (0 : Fin 1) l)).toNat = k.val then (1 : EReal) else 0) := by
  unfold k0_pay5
  refine (shapeCast_ab_1ab_apply _ _ (0 : Fin 1) (0 : Fin 1) k).trans ?_
  rw [addf_apply, shapeCast_1ab_ab_apply, matmul_cnt_apply]
  refine congrArg (xo (ix3 (0 : Fin 1) (0 : Fin 1) k) + ·) (Finset.sum_congr rfl fun l _ => ?_)
  rw [broadcast_apply, onehot_apply]
  show Ideal.ofBits .bf16 0x3F80#16 * _ = _
  rw [ofBits_bf16_3F80, one_mul]

end Cert.Centroid.Pay

end
-- ==== Proof.Accum.lean ====
/-
  The output blocks after a grid point, in closed form, at the ideal values.

  Point `n` of the grid is tile `n % 16` of batch entry `n / 16`. After it, entry (feature `c`, class `k`) of the
  sums block is the sum, over the tiles `0 … n % 16` of that batch entry, of the tile's contribution: the sum of the
  feature over the tile's pixels labelled `k`. The counts block likewise, with `1` in place of the feature. By
  induction on the point: a first tile starts from the zero block, any other adds to what the point before left.
-/
import proofs.«415046_j19516331393756_3_alg».proof.Proof.AccStep
import proofs.«415046_j19516331393756_3_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

variable (m : (ℓ : Loc nD τ sig) → Buf (Elt Ideal) ℓ)

/-- The contribution of the tile of point `t` to (feature `cc`, class `k`): the feature summed over the tile's pixels
    labelled `k`. -/
def contrib2 (c : Dev nD) (t : Fin cfg0.N) (cc : Fin 64) (k : Fin 19) : EReal :=
  ∑ l : Fin 16384, if (tblk m c t (ix3 (0 : Fin 1) (0 : Fin 1) l)).toNat = k.val then xblk m c t (ix3 (0 : Fin 1) cc l) else 0

/-- The number of the tile's pixels labelled `k`. -/
def contrib3 (c : Dev nD) (t : Fin cfg0.N) (k : Fin 19) : EReal :=
  ∑ l : Fin 16384, if (tblk m c t (ix3 (0 : Fin 1) (0 : Fin 1) l)).toNat = k.val then (1 : EReal) else 0

/-- The same by the point's number (zero past the grid). -/
def cN2 (c : Dev nD) (s : ℕ) (cc : Fin 64) (k : Fin 19) : EReal := if h : s < cfg0.N then contrib2 m c ⟨s, h⟩ cc k else 0
def cN3 (c : Dev nD) (s : ℕ) (k : Fin 19) : EReal := if h : s < cfg0.N then contrib3 m c ⟨s, h⟩ k else 0

theorem cN2_of_lt (c : Dev nD) (s : ℕ) (h : s < cfg0.N) (cc : Fin 64) (k : Fin 19) : cN2 m c s cc k = contrib2 m c ⟨s, h⟩ cc k := dif_pos h
theorem cN3_of_lt (c : Dev nD) (s : ℕ) (h : s < cfg0.N) (k : Fin 19) : cN3 m c s k = contrib3 m c ⟨s, h⟩ k := dif_pos h

/-- One step of the sums block, read at an entry: a first tile. -/
theorem acc2_A_apply (c : Dev nD) (t : Fin cfg0.N) (h0 : t.val % 16 = 0) (cc : Fin 64) (k : Fin 19) :
    acc2 m c t.val t.isLt (ix3 (0 : Fin 1) cc k) = contrib2 m c t cc k := by
  rw [acc2_A m c t h0, Pay.pay4_apply (xblk m c t) (tblk m c t) (k0_pay1 (F := Ideal)) cc k, Pay.pay1_apply cc k, zero_add]
  rfl

/-- One step of the sums block, read at an entry: a later tile. -/
theorem acc2_B_apply (c : Dev nD) (t : Fin cfg0.N) (h0 : ¬t.val % 16 = 0) (cc : Fin 64) (k : Fin 19) :
    acc2 m c t.val t.isLt (ix3 (0 : Fin 1) cc k)
      = acc2 m c (t.val - 1) (Nat.lt_of_le_of_lt (Nat.sub_le _ _) t.isLt) (ix3 (0 : Fin 1) cc k) + contrib2 m c t cc k := by
  rw [acc2_B m c t h0, Pay.pay4_apply (xblk m c t) (tblk m c t) _ cc k]
  rfl

theorem acc3_A_apply (c : Dev nD) (t : Fin cfg0.N) (h0 : t.val % 16 = 0) (k : Fin 19) :
    acc3 m c t.val t.isLt (ix3 (0 : Fin 1) (0 : Fin 1) k) = contrib3 m c t k := by
  rw [acc3_A m c t h0, Pay.pay5_apply (tblk m c t) (k0_pay2 (F := Ideal)) k, Pay.pay2_apply k, zero_add]
  rfl

theorem acc3_B_apply (c : Dev nD) (t : Fin cfg0.N) (h0 : ¬t.val % 16 = 0) (k : Fin 19) :
    acc3 m c t.val t.isLt (ix3 (0 : Fin 1) (0 : Fin 1) k)
      = acc3 m c (t.val - 1) (Nat.lt_of_le_of_lt (Nat.sub_le _ _) t.isLt) (ix3 (0 : Fin 1) (0 : Fin 1) k) + contrib3 m c t k := by
  rw [acc3_B m c t h0, Pay.pay5_apply (tblk m c t) _ k]
  rfl

/-- THE SUMS BLOCK after point `n`: the contributions of the tiles `0 … n % 16` of batch entry `n / 16`. -/
theorem acc2_closed (c : Dev nD) (cc : Fin 64) (k : Fin 19) : ∀ (n : ℕ) (h : n < cfg0.N),
    acc2 m c n h (ix3 (0 : Fin 1) cc k) = ∑ j ∈ Finset.range (n % 16 + 1), cN2 m c (n / 16 * 16 + j) cc k
  | 0, h => by
    rw [show (0 % 16 + 1) = 1 from rfl, Finset.sum_range_one]
    rw [show 0 / 16 * 16 + 0 = 0 from rfl, cN2_of_lt m c 0 h]
    exact acc2_A_apply m c ⟨0, h⟩ rfl cc k
  | n + 1, h => by
    by_cases h0 : (n + 1) % 16 = 0
    · rw [h0, Finset.sum_range_one, show (n + 1) / 16 * 16 + 0 = n + 1 from by omega, cN2_of_lt m c (n + 1) h]
      exact acc2_A_apply m c ⟨n + 1, h⟩ h0 cc k
    · have e1 : (n + 1) % 16 + 1 = (n % 16 + 1) + 1 := by omega
      have e2 : (n + 1) / 16 * 16 = n / 16 * 16 := by omega
      have e3 : n / 16 * 16 + (n % 16 + 1) = n + 1 := by omega
      rw [e1, e2, Finset.sum_range_succ, e3, cN2_of_lt m c (n + 1) h, ← acc2_closed c cc k n (Nat.lt_of_succ_lt h)]
      exact acc2_B_apply m c ⟨n + 1, h⟩ h0 cc k

/-- THE COUNTS BLOCK after point `n`: the counts of the tiles `0 … n % 16` of batch entry `n / 16`. -/
theorem acc3_closed (c : Dev nD) (k : Fin 19) : ∀ (n : ℕ) (h : n < cfg0.N),
    acc3 m c n h (ix3 (0 : Fin 1) (0 : Fin 1) k) = ∑ j ∈ Finset.range (n % 16 + 1), cN3 m c (n / 16 * 16 + j) k
  | 0, h => by
    rw [show (0 % 16 + 1) = 1 from rfl, Finset.sum_range_one]
    rw [show 0 / 16 * 16 + 0 = 0 from rfl, cN3_of_lt m c 0 h]
    exact acc3_A_apply m c ⟨0, h⟩ rfl k
  | n + 1, h => by
    by_cases h0 : (n + 1) % 16 = 0
    · rw [h0, Finset.sum_range_one, show (n + 1) / 16 * 16 + 0 = n + 1 from by omega, cN3_of_lt m c (n + 1) h]
      exact acc3_A_apply m c ⟨n + 1, h⟩ h0 k
    · have e1 : (n + 1) % 16 + 1 = (n % 16 + 1) + 1 := by omega
      have e2 : (n + 1) / 16 * 16 = n / 16 * 16 := by omega
      have e3 : n / 16 * 16 + (n % 16 + 1) = n + 1 := by omega
      rw [e1, e2, Finset.sum_range_succ, e3, cN3_of_lt m c (n + 1) h, ← acc3_closed c k n (Nat.lt_of_succ_lt h)]
      exact acc3_B_apply m c ⟨n + 1, h⟩ h0 k

end Cert.Centroid.KI

end
-- ==== Proof.Arrays.lean ====
/-
  The two arrays the grid leaves, at the ideal values.

  The sums block of batch entry `b` is written back once, after the entry's last tile (point `16 b + 15`), into row
  `b` of the [8, 64, 19] array; by then it holds the contributions of all sixteen tiles of the entry. The eight
  write-backs cover the array. The counts block likewise into the [8, 1, 19] array.
-/
import proofs.«415046_j19516331393756_3_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

variable (m : (ℓ : Loc nD τ sig) → Buf (Elt Ideal) ℓ)

/-- The per-batch-entry sums: entry `(b, cc, k)` is the sum of the sixteen tiles' contributions. -/
def G2 (c : Dev nD) : Vec Ideal S8x64x19 .f32 := fun i =>
  ∑ j ∈ Finset.range 16, cN2 m c ((i 0).val * 16 + j) ⟨(i 1).val, (i 1).isLt⟩ ⟨(i 2).val, (i 2).isLt⟩

/-- The per-batch-entry counts. -/
def G3 (c : Dev nD) : Vec Ideal S8x1x19 .f32 := fun i =>
  ∑ j ∈ Finset.range 16, cN3 m c ((i 0).val * 16 + j) ⟨(i 2).val, (i 2).isLt⟩

theorem G2_apply (c : Dev nD) (b : Fin 8) (cc : Fin 64) (k : Fin 19) :
    G2 m c (ix3 b cc k) = ∑ j ∈ Finset.range 16, cN2 m c (b.val * 16 + j) cc k := rfl

theorem G3_apply (c : Dev nD) (b : Fin 8) (u : Fin 1) (k : Fin 19) :
    G3 m c (ix3 b u k) = ∑ j ∈ Finset.range 16, cN3 m c (b.val * 16 + j) k := rfl

/-- Where the output windows' blocks sit: row `t / 16`, decided over the grid. -/
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- What a flushing point writes back into the sums array is its block of `G2`. -/
theorem flushed2_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  have hN : t.val < 128 := lt_of_lt_of_eq t.isLt (show cfg0.N = 128 from N_0)
  show (cfg0.win 2).cut (grid0.coords t) ((dats m 0 c).after 2 t) = _
  rw [after0_2]
  refine funext fun (y : S1x64x19.Idx) => ?_
  show acc2 m c t.val t.isLt y = G2 m c (((cfg0.win 2).blk t).view.emb y)
  obtain ⟨u, cc, k, rfl⟩ : ∃ (u : Fin 1) (cc : Fin 64) (k : Fin 19), y = ix3 u cc k := ⟨y 0, y 1, y 2, eq_ix3 y⟩
  obtain rfl : u = 0 := Subsingleton.elim _ _
  obtain ⟨i0, i1, i2⟩ := idx2 t
  have he : ((cfg0.win 2).blk t).view.emb (ix3 (0 : Fin 1) cc k) = ix3 (⟨t.val / 16, by omega⟩ : Fin 8) cc k := by
    funext a; apply Fin.ext
    match a with
    | ⟨0, _⟩ => show win0_2.index t 0 * 1 + 1 * 0 = t.val / 16; rw [i0]; omega
    | ⟨1, _⟩ => show win0_2.index t 1 * 64 + 1 * cc.val = cc.val; rw [i1]; omega
    | ⟨2, _⟩ => show win0_2.index t 2 * 19 + 1 * k.val = k.val; rw [i2]; omega
  rw [he, G2_apply, acc2_closed m c cc k t.val t.isLt, h15]

/-- What a flushing point writes back into the counts array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  have hN : t.val < 128 := lt_of_lt_of_eq t.isLt (show cfg0.N = 128 from N_0)
  show (cfg0.win 3).cut (grid0.coords t) ((dats m 0 c).after 3 t) = _
  rw [after0_3]
  refine funext fun (y : S1x1x19.Idx) => ?_
  show acc3 m c t.val t.isLt y = G3 m c (((cfg0.win 3).blk t).view.emb y)
  obtain ⟨u, v, k, rfl⟩ : ∃ (u : Fin 1) (v : Fin 1) (k : Fin 19), y = ix3 u v k := ⟨y 0, y 1, y 2, eq_ix3 y⟩
  obtain rfl : u = 0 := Subsingleton.elim _ _
  obtain rfl : v = 0 := Subsingleton.elim _ _
  obtain ⟨i0, i1, i2⟩ := idx3 t
  have he : ((cfg0.win 3).blk t).view.emb (ix3 (0 : Fin 1) (0 : Fin 1) k) = ix3 (⟨t.val / 16, by omega⟩ : Fin 8) (0 : Fin 1) k := by
    funext a; apply Fin.ext
    match a with
    | ⟨0, _⟩ => show win0_3.index t 0 * 1 + 1 * 0 = t.val / 16; rw [i0]; omega
    | ⟨1, _⟩ => show win0_3.index t 1 * 1 + 1 * 0 = 0; rw [i1]
    | ⟨2, _⟩ => show win0_3.index t 2 * 19 + 1 * k.val = k.val; rw [i2]; omega
  rw [he, G3_apply, acc3_closed m c k t.val t.isLt, h15]

/-- The last tile of batch entry `b`. -/
def lastPt (b : ℕ) (hb : b < 8) : Fin cfg0.N := ⟨16 * b + 15, by rw [show cfg0.N = 128 from N_0]; omega⟩

/-- The sums array after the grid. -/
theorem final2 (c : Dev nD) : (dats m 0 c).arrAt 2 cfg0.N = G2 m c :=
  (dats m 0 c).arrAt_eq_of_cover 2 (G2 m c) (flushed2_eq m c) fun i => by
    have h0 : (i 0).val < 8 := (i 0).isLt
    have h1 : (i 1).val < 64 := (i 1).isLt
    have h2 : (i 2).val < 19 := (i 2).isLt
    refine ⟨lastPt (i 0).val h0, (flush0_2 _).mpr (by show (16 * (i 0).val + 15) % 16 = 15; omega), ?_⟩
    show i ∈ ((View.whole main_v2_0).slice (win0_2.rect (lastPt (i 0).val h0))).set
    rw [View.set_slice_whole, Rect.mem_set_unit]
    obtain ⟨i0, i1, i2⟩ := idx2 (lastPt (i 0).val h0)
    have hq : (lastPt (i 0).val h0).val / 16 = (i 0).val := by show (16 * (i 0).val + 15) / 16 = _; omega
    intro a
    match a with
    | ⟨0, _⟩ => show win0_2.index (lastPt (i 0).val h0) 0 * 1 ≤ (i 0).val ∧ (i 0).val < win0_2.index (lastPt (i 0).val h0) 0 * 1 + 1
                rw [i0, hq]; omega
    | ⟨1, _⟩ => show win0_2.index (lastPt (i 0).val h0) 1 * 64 ≤ (i 1).val ∧ (i 1).val < win0_2.index (lastPt (i 0).val h0) 1 * 64 + 64
                rw [i1]; omega
    | ⟨2, _⟩ => show win0_2.index (lastPt (i 0).val h0) 2 * 19 ≤ (i 2).val ∧ (i 2).val < win0_2.index (lastPt (i 0).val h0) 2 * 19 + 19
                rw [i2]; omega

/-- The counts array after the grid. -/
theorem final3 (c : Dev nD) : (dats m 0 c).arrAt 3 cfg0.N = G3 m c :=
  (dats m 0 c).arrAt_eq_of_cover 3 (G3 m c) (flushed3_eq m c) fun i => by
    have h0 : (i 0).val < 8 := (i 0).isLt
    have h1 : (i 1).val < 1 := (i 1).isLt
    have h2 : (i 2).val < 19 := (i 2).isLt
    refine ⟨lastPt (i 0).val h0, (flush0_3 _).mpr (by show (16 * (i 0).val + 15) % 16 = 15; omega), ?_⟩
    show i ∈ ((View.whole main_v2_1).slice (win0_3.rect (lastPt (i 0).val h0))).set
    rw [View.set_slice_whole, Rect.mem_set_unit]
    obtain ⟨i0, i1, i2⟩ := idx3 (lastPt (i 0).val h0)
    have hq : (lastPt (i 0).val h0).val / 16 = (i 0).val := by show (16 * (i 0).val + 15) / 16 = _; omega
    intro a
    match a with
    | ⟨0, _⟩ => show win0_3.index (lastPt (i 0).val h0) 0 * 1 ≤ (i 0).val ∧ (i 0).val < win0_3.index (lastPt (i 0).val h0) 0 * 1 + 1
                rw [i0, hq]; omega
    | ⟨1, _⟩ => show win0_3.index (lastPt (i 0).val h0) 1 * 1 ≤ (i 1).val ∧ (i 1).val < win0_3.index (lastPt (i 0).val h0) 1 * 1 + 1
                rw [i1]; omega
    | ⟨2, _⟩ => show win0_3.index (lastPt (i 0).val h0) 2 * 19 ≤ (i 2).val ∧ (i 2).val < win0_3.index (lastPt (i 0).val h0) 2 * 19 + 19
                rw [i2]; omega

end Cert.Centroid.KI

end
-- ==== Proof.Tail.lean ====
/-
  The common tail of the two programs: from the per-class sums `s` ([19, 64]) and counts `n` ([19]) to the loss.

  Both programs go on in the same way once they hold the per-class sums and counts: the centres are
  `s / max(n, 1)` row by row, each centre is divided by `max(‖centre‖, 1e-8)`, the [19, 19] matrix of inner products of
  the normalised centres is formed, an entry `S` of it contributes `1 - S` on the diagonal and `max(S, 0)` off it, and
  the total is divided by `19³ = 6859`. Nothing of this is opened here: it is carried as ONE function of `(s, n)`.
-/
import proofs.«415046_j19516331393756_3_alg».proof.Proof.Gen.ReferenceIdeal.Read

noncomputable section

open Idealize.ShloMosaic Idealize.ShloMosaic.TcCoe Idealize.SL.Sem

namespace Cert.Centroid

open Cert.ReferenceIdeal Cert.ReferenceIdeal.Gen

variable {F : FTy → Type} [FloatOps F]

/-- The loss as a function of the per-class sums and counts: the operations both programs apply after them, in
    program order. -/
def tail (sums : FVec F S19x64 .f32) (counts : FVec F S19 .f32) : FVec F S_ .f32 :=
  have v10 : FVec F S19 .f32 := broadcastInDim S19 ![] bcast_S_S19 (constant (F := F) S_ .f32 0x3F800000#32)
  have v11 : FVec F S19 .f32 := maximumf counts v10
  have v12 : FVec F S19x1 .f32 := broadcastInDim S19x1 ![0] bcast_S19_S19x1_0 v11
  have v13 : FVec F S19x64 .f32 := broadcastInDim S19x64 ![0, 1] bcast_S19x1_S19x64_0_1 v12
  have v14 : FVec F S19x64 .f32 := Host.divf sums v13
  have v15 : FVec F S19x64 .f32 := mulf v14 v14
  have v16 : FVec F S19 .f32 := Host.reduceAdd v15 (constant (F := F) S_ .f32 0x00000000#32) reducesTo_S19x64_S19_d1 h_S_
  have v17 : FVec F S19 .f32 := Host.sqrt v16
  have v18 : FVec F S19 .f32 := broadcastInDim S19 ![] bcast_S_S19 (constant (F := F) S_ .f32 0x322BCC77#32)
  have v19 : FVec F S19 .f32 := maximumf v17 v18
  have v20 : FVec F S19x1 .f32 := broadcastInDim S19x1 ![0] bcast_S19_S19x1_0 v19
  have v21 : FVec F S19x64 .f32 := broadcastInDim S19x64 ![0, 1] bcast_S19x1_S19x64_0_1 v20
  have v22 : FVec F S19x64 .f32 := Host.divf v14 v21
  have v23 : FVec F S64x19 .f32 := transpose S64x19 [1, 0] v22 transposes_S19x64_S64x19_1_0
  have v24 : FVec F S19x19 .f32 := Host.dotGeneral dot_S19x64_S64x19_S19x19_1_0_0_1_n_n none v22 v23
  have v25 : IVec S19x19 32 := iotaInDim S19x19 32 0
  have v26 : IVec S19x19 32 := iotaInDim S19x19 32 1
  have v27 : IVec S19x19 32 := broadcastInDim S19x19 ![] bcast_S_S19x19 (constantI S_ 32 0#32)
  have v28 : IVec S19x19 32 := addi v25 v27
  have v29 : IVec S19x19 1 := cmpi .eq v28 v26
  have v30 : FVec F S19x19 .f32 := broadcastInDim S19x19 ![] bcast_S_S19x19 (constant (F := F) S_ .f32 0x3F800000#32)
  have v31 : FVec F S19x19 .f32 := subf v30 v24
  have v32 : FVec F S19x19 .f32 := broadcastInDim S19x19 ![] bcast_S_S19x19 (constant (F := F) S_ .f32 0x00000000#32)
  have v33 : FVec F S19x19 .f32 := maximumf v24 v32
  have v34 : FVec F S19x19 .f32 := select v29 v31 v33
  have v35 : FVec F S_ .f32 := Host.reduceAdd v34 (constant (F := F) S_ .f32 0x00000000#32) reducesTo_S19x19_S_d0_1 h_S_
  Host.divf v35 (constant (F := F) S_ .f32 0x45D65800#32)

/-- The reference's result is the tail of its two scatter results. -/
theorem ref_tail (x0 : (⟨S8x64x512x512, .f32⟩ : BufTy).Contents (Elt F)) (x1 : (⟨S8x512x512, .i32⟩ : BufTy).Contents (Elt F)) :
    Read.val_main_v36 (F := F) x0 x1 = tail (Read.val_main_v5 (F := F) x0 x1) (Read.val_main_v9 (F := F) x1) := rfl

end Cert.Centroid

end
-- ==== Proof.KTail.lean ====
/-
  The kernel program's result from its two output arrays.

  After the grid, the program sums the [8, 64, 19] array of per-batch-entry sums over the batch axis and transposes it
  to [19, 64], sums the [8, 1, 19] array of per-batch-entry counts over its first two axes to [19], and applies the
  common tail to the two.
-/
import proofs.«415046_j19516331393756_3_alg».proof.Proof.Gen.KernelIdeal.Frame
import proofs.«415046_j19516331393756_3_alg».proof.Proof.Tail
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.Centroid.KI

open Cert.KernelIdeal Cert.KernelIdeal.Gen

variable {F : FTy → Type} [FloatOps F]
variable (m : (ℓ : Loc nD τ sig) → Buf (Elt F) ℓ)

/-- The per-class sums [19, 64] from the per-batch-entry sums [8, 64, 19]: summed over the batch, transposed. -/
def ksums (A2 : FVec F S8x64x19 .f32) : FVec F S19x64 .f32 :=
  transpose S19x64 [1, 0] (Host.reduceAdd A2 (constant (F := F) S_ .f32 0x00000000#32) reducesTo_S8x64x19_S64x19_d0 h_S_) transposes_S64x19_S19x64_1_0

/-- The per-class counts [19] from the per-batch-entry counts [8, 1, 19]: summed over the first two axes. -/
def kcounts (A3 : FVec F S8x1x19 .f32) : FVec F S19 .f32 :=
  Host.reduceAdd A3 (constant (F := F) S_ .f32 0x00000000#32) reducesTo_S8x1x19_S19_d0_1 h_S_

/-- The operations after the grid, run from any buffer contents `W`, leave the result at the common tail of the
    sums and counts of the two output arrays as `W` has them. -/
theorem tail_after (W : Valuation τ sig (Elt F)) :
    StableHlo.after (List.flatten [hostOps1, hostOps1_1, hostOps1_2]) W (Proc.devRef .tc main_v32)
      = Cert.Centroid.tail (ksums (W (Proc.devRef .tc main_v2_0))) (kcounts (W (Proc.devRef .tc main_v2_1))) := by
  simp only [hostOps1, hostOps1_1, hostOps1_2, List.flatten_cons, List.flatten_nil, List.append_nil, List.cons_append, List.nil_append]
  after_results_simp
  rfl

/-- The program's result: the common tail of the sums and counts of the two arrays the grid leaves. -/
theorem result_eq (c : Dev nD) :
    Pipeline.afterTail₀ cfgs (dats m) 0 (V0 m) [hostOps1, hostOps1_1, hostOps1_2] c main_v32
      = Cert.Centroid.tail (ksums ((dats m 0 c).arrAt 2 cfg0.N)) (kcounts ((dats m 0 c).arrAt 3 cfg0.N)) := by
  unfold Pipeline.afterTail₀
  refine (tail_after _).trans ?_
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  exact congr (congrArg Cert.Centroid.tail (congrArg ksums e2)) (congrArg kcounts e3)

end Cert.Centroid.KI

end
-- ==== Proof.Spec.lean ====
/-
  The per-class sums and counts both programs compute before their common tail.

  The input `X` has shape [8, 64, 512, 512] (batch, feature, row, column); the labels `T` have shape [8, 512, 512].
  For a class `k` (one of 19) and a feature `c`, `classSum X T k c` is the sum of `X b c h w` over the pixels
  `(b, h, w)` whose label is `k`, and `classCount T k` is the number of those pixels. A label is an i32 word; it
  names class `k` exactly when its unsigned value is `k` (a negative word, or one from 19 on, names no class:
  such a pixel contributes to no sum and no count).
-/
import Idealize.ShloMosaic.Lib.ValueIdx
import Idealize.ShloMosaic.PureOps.Ideal

noncomputable section

open scoped BigOperators

namespace Cert.Centroid

open Idealize.ShloMosaic Idealize.ShloMosaic.ValueIdx

/-- The shape of the features. -/
abbrev SX : Shape := ⟨4, ![8, 64, 512, 512]⟩
/-- The shape of the labels. -/
abbrev ST : Shape := ⟨3, ![8, 512, 512]⟩

/-- The sum of feature `c` over the pixels labelled `k`. -/
def classSum (X : SX.Idx → EReal) (T : ST.Idx → BitVec 32) (k : Fin 19) (c : Fin 64) : EReal :=
  ∑ b : Fin 8, ∑ h : Fin 512, ∑ w : Fin 512, if (T (ix3 b h w)).toNat = k.val then X (ix4 b c h w) else 0

/-- The number of pixels labelled `k`. -/
def classCount (T : ST.Idx → BitVec 32) (k : Fin 19) : EReal :=
  ∑ b : Fin 8, ∑ h : Fin 512, ∑ w : Fin 512, if (T (ix3 b h w)).toNat = k.val then (1 : EReal) else 0

end Cert.Centroid

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KSums.lean ====
/-
  The kernel program's per-class sums and counts are the specification's.

  Summing the per-batch-entry sums over the batch gives, for class `k` and feature `cc`, the sum over the batch
  entries `b`, the sixteen tiles `j` and the 16384 lanes `l` of the feature at flat pixel `16384 j + l` of entry `b` where
  that pixel is labelled `k`. The 16 × 16384 flat pixels of an entry are its 512 × 512 rows and columns (same flat
  position), and the flattened arrays read the arguments at that row and column: this is `classSum`. Counts likewise.
-/
import proofs.«415046_j19516331393756_3_alg».proof.Proof.Arrays
import proofs.«415046_j19516331393756_3_alg».proof.Proof.KTail
import proofs.«415046_j19516331393756_3_alg».proof.Proof.Spec
import proofs.«415046_j19516331393756_3_alg».proof.Proof.LibSums

noncomputable section

open scoped BigOperators
open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

/-! ## The two sums after the grid, read at an index -/

/-- The per-class sums at `(k, cc)`: the per-batch-entry sums at `(b, cc, k)` summed over `b`. -/
theorem ksums_apply (A2 : FVec Ideal S8x64x19 .f32) (k : Fin 19) (cc : Fin 64) :
    ksums (F := Ideal) A2 (ix2 k cc) = ∑ b : Fin 8, A2 (ix3 b cc k) := by
  unfold ksums
  refine (transpose_apply [1, 0] _ transposes_S64x19_S19x64_1_0 (ix2 k cc) (ix2 cc k) (fun b => match b with
    | ⟨0, _⟩ => rfl
    | ⟨1, _⟩ => rfl)).trans ?_
  simp only [Host.reduceAdd, Ideal.hostReduceAdd_def]
  rw [Ideal.hostReduceAdd_single reducesTo_S8x64x19_S64x19_d0 (by decide)]
  show Ideal.ofBits .f32 0x00000000#32 + _ = _
  rw [Ideal.ofBits_zero_f32, zero_add]
  exact Finset.sum_congr rfl fun b _ => congrArg A2 (funext fun a => Fin.ext (by
    match a with
    | ⟨0, _⟩ => rfl
    | ⟨1, _⟩ => rfl
    | ⟨2, _⟩ => rfl))

/-- The per-class counts at `k`: the per-batch-entry counts at `(b, 0, k)` summed over `b`. -/
theorem kcounts_apply' (A3 : FVec Ideal S8x1x19 .f32) (j : S19.Idx) :
    kcounts (F := Ideal) A3 j = ∑ b : Fin 8, A3 (ix3 b (0 : Fin 1) (⟨(j 0).val, (j 0).isLt⟩ : Fin 19)) := by
  unfold kcounts
  rw [LibSums.hostReduceAdd_apply,
    LibSums.hostReduceAdd_of_lift reducesTo_S8x1x19_S19_d0_1 A3 _ j
      (fun b : Fin 8 => ix3 b (0 : Fin 1) (⟨(j 0).val, (j 0).isLt⟩ : Fin 19)) (fun i => (⟨(i 0).val, (i 0).isLt⟩ : Fin 8))
      (fun b => funext fun a => by match a with | ⟨0, _⟩ => rfl)
      (fun b => rfl)
      (fun i hi => by
        subst hi
        funext a
        match a with
        | ⟨0, _⟩ => rfl
        | ⟨1, _⟩ => exact Subsingleton.elim (α := Fin 1) _ _
        | ⟨2, _⟩ => rfl)]
  show Ideal.ofBits .f32 0x00000000#32 + _ = _
  rw [Ideal.ofBits_zero_f32, zero_add]

theorem kcounts_apply (A3 : FVec Ideal S8x1x19 .f32) (k : Fin 19) :
    kcounts (F := Ideal) A3 (ix1 k) = ∑ b : Fin 8, A3 (ix3 b (0 : Fin 1) k) := kcounts_apply' A3 (ix1 k)

variable (m : (ℓ : Loc nD τ sig) → Buf (Elt Ideal) ℓ)

/-- The features argument, at its literal type. -/
abbrev argX (c : Dev nD) : FVec Ideal S8x64x512x512 .f32 := m ((c : Thread nD τ).loc main_arg0)
/-- The labels argument, at its literal type. -/
abbrev argT (c : Dev nD) : IVec S8x512x512 32 := m ((c : Thread nD τ).loc main_arg1)

/-! ## A tile's contribution by flat pixel numbers -/

/-- The term of flat pixel `q` of batch entry `b` in the sum for `(cc, k)`: the feature there if the pixel is
    labelled `k`, else zero (zero past the entry's 262144 pixels). -/
def term2 (c : Dev nD) (cc : Fin 64) (k : Fin 19) (b : Fin 8) (q : ℕ) : EReal :=
  if hq : q < 262144 then
    (if (tarr m c (ix3 b (0 : Fin 1) (⟨q, hq⟩ : Fin 262144))).toNat = k.val then xarr m c (ix3 b cc (⟨q, hq⟩ : Fin 262144)) else 0)
  else 0

/-- The same for the counts. -/
def term3 (c : Dev nD) (k : Fin 19) (b : Fin 8) (q : ℕ) : EReal :=
  if hq : q < 262144 then
    (if (tarr m c (ix3 b (0 : Fin 1) (⟨q, hq⟩ : Fin 262144))).toNat = k.val then (1 : EReal) else 0)
  else 0

theorem contrib2_eq (c : Dev nD) (b : Fin 8) (j : Fin 16) (hlt : b.val * 16 + j.val < cfg0.N) (cc : Fin 64) (k : Fin 19) :
    contrib2 m c ⟨b.val * 16 + j.val, hlt⟩ cc k = ∑ l : Fin 16384, term2 m c cc k b (j.val * 16384 + l.val) := by
  unfold contrib2
  refine Finset.sum_congr rfl fun l _ => ?_
  have hq : j.val * 16384 + l.val < 262144 := by have := j.isLt; have := l.isLt; omega
  have hb : b.val = (⟨b.val * 16 + j.val, hlt⟩ : Fin cfg0.N).val / 16 := by show b.val = (b.val * 16 + j.val) / 16; have := j.isLt; omega
  have hp : (⟨j.val * 16384 + l.val, hq⟩ : Fin 262144).val = (⟨b.val * 16 + j.val, hlt⟩ : Fin cfg0.N).val % 16 * 16384 + l.val := by
    show j.val * 16384 + l.val = (b.val * 16 + j.val) % 16 * 16384 + l.val; have := j.isLt; omega
  rw [term2, dif_pos hq, tblk_apply m c _ l b ⟨j.val * 16384 + l.val, hq⟩ hb hp, xblk_apply m c _ cc l b ⟨j.val * 16384 + l.val, hq⟩ hb hp]

theorem contrib3_eq (c : Dev nD) (b : Fin 8) (j : Fin 16) (hlt : b.val * 16 + j.val < cfg0.N) (k : Fin 19) :
    contrib3 m c ⟨b.val * 16 + j.val, hlt⟩ k = ∑ l : Fin 16384, term3 m c k b (j.val * 16384 + l.val) := by
  unfold contrib3
  refine Finset.sum_congr rfl fun l _ => ?_
  have hq : j.val * 16384 + l.val < 262144 := by have := j.isLt; have := l.isLt; omega
  have hb : b.val = (⟨b.val * 16 + j.val, hlt⟩ : Fin cfg0.N).val / 16 := by show b.val = (b.val * 16 + j.val) / 16; have := j.isLt; omega
  have hp : (⟨j.val * 16384 + l.val, hq⟩ : Fin 262144).val = (⟨b.val * 16 + j.val, hlt⟩ : Fin cfg0.N).val % 16 * 16384 + l.val := by
    show j.val * 16384 + l.val = (b.val * 16 + j.val) % 16 * 16384 + l.val; have := j.isLt; omega
  rw [term3, dif_pos hq, tblk_apply m c _ l b ⟨j.val * 16384 + l.val, hq⟩ hb hp]

/-- A flat pixel `h · 512 + w` is row `h`, column `w`: the term there reads the arguments at `(b, ·, h, w)`. -/
theorem term2_rc (c : Dev nD) (cc : Fin 64) (k : Fin 19) (b : Fin 8) (h w : Fin 512) :
    term2 m c cc k b (h.val * 512 + w.val)
      = if (argT m c (ix3 b h w)).toNat = k.val then argX m c (ix4 b cc h w) else 0 := by
  have hq : h.val * 512 + w.val < 262144 := by have := h.isLt; have := w.isLt; omega
  rw [term2, dif_pos hq, tarr_apply m c b ⟨h.val * 512 + w.val, hq⟩ h w rfl, xarr_apply m c b cc ⟨h.val * 512 + w.val, hq⟩ h w rfl]

theorem term3_rc (c : Dev nD) (k : Fin 19) (b : Fin 8) (h w : Fin 512) :
    term3 m c k b (h.val * 512 + w.val)
      = if (argT m c (ix3 b h w)).toNat = k.val then (1 : EReal) else 0 := by
  have hq : h.val * 512 + w.val < 262144 := by have := h.isLt; have := w.isLt; omega
  rw [term3, dif_pos hq, tarr_apply m c b ⟨h.val * 512 + w.val, hq⟩ h w rfl]

/-! ## The per-batch-entry arrays, then the per-class sums -/

theorem range16 {M : Type*} [AddCommMonoid M] (f : ℕ → M) : ∑ j ∈ Finset.range 16, f j = ∑ j : Fin 16, f j.val :=
  (Fin.sum_univ_eq_sum_range f 16).symm

/-- Entry `(b, cc, k)` of the sums array: the sum over the rows and columns of entry `b`. -/
theorem G2_rc (c : Dev nD) (b : Fin 8) (cc : Fin 64) (k : Fin 19) :
    G2 m c (ix3 b cc k) = ∑ h : Fin 512, ∑ w : Fin 512,
      if (argT m c (ix3 b h w)).toNat = k.val then argX m c (ix4 b cc h w) else 0 := by
  have hN : cfg0.N = 128 := N_0
  rw [G2_apply, range16]
  have e : ∀ j : Fin 16, cN2 m c (b.val * 16 + j.val) cc k = ∑ l : Fin 16384, term2 m c cc k b (j.val * 16384 + l.val) := fun j => by
    have hlt : b.val * 16 + j.val < cfg0.N := by rw [hN]; have := b.isLt; have := j.isLt; omega
    rw [cN2_of_lt m c _ hlt, contrib2_eq]
  rw [Finset.sum_congr rfl fun j _ => e j, LibSums.sum_flat_relay (a := 512) (b := 512) (a' := 16) (b' := 16384) rfl (term2 m c cc k b)]
  exact Finset.sum_congr rfl fun h _ => Finset.sum_congr rfl fun w _ => term2_rc m c cc k b h w

theorem G3_rc (c : Dev nD) (b : Fin 8) (k : Fin 19) :
    G3 m c (ix3 b (0 : Fin 1) k) = ∑ h : Fin 512, ∑ w : Fin 512,
      if (argT m c (ix3 b h w)).toNat = k.val then (1 : EReal) else 0 := by
  have hN : cfg0.N = 128 := N_0
  rw [G3_apply, range16]
  have e : ∀ j : Fin 16, cN3 m c (b.val * 16 + j.val) k = ∑ l : Fin 16384, term3 m c k b (j.val * 16384 + l.val) := fun j => by
    have hlt : b.val * 16 + j.val < cfg0.N := by rw [hN]; have := b.isLt; have := j.isLt; omega
    rw [cN3_of_lt m c _ hlt, contrib3_eq]
  rw [Finset.sum_congr rfl fun j _ => e j, LibSums.sum_flat_relay (a := 512) (b := 512) (a' := 16) (b' := 16384) rfl (term3 m c k b)]
  exact Finset.sum_congr rfl fun h _ => Finset.sum_congr rfl fun w _ => term3_rc m c k b h w

/-- THE KERNEL'S PER-CLASS SUMS are the specification's. -/
theorem kernel_sums (c : Dev nD) (k : Fin 19) (cc : Fin 64) :
    ksums (F := Ideal) (G2 m c) (ix2 k cc)
      = Cert.Centroid.classSum (argX m c) (argT m c) k cc := by
  rw [ksums_apply]
  unfold Cert.Centroid.classSum
  exact Finset.sum_congr rfl fun b _ => G2_rc m c b cc k

/-- THE KERNEL'S PER-CLASS COUNTS are the specification's. -/
theorem kernel_counts (c : Dev nD) (k : Fin 19) :
    kcounts (F := Ideal) (G3 m c) (ix1 k)
      = Cert.Centroid.classCount (argT m c) k := by
  rw [kcounts_apply]
  unfold Cert.Centroid.classCount
  exact Finset.sum_congr rfl fun b _ => G3_rc m c b k

end Cert.Centroid.KI

end
-- ==== Proof.SpecArr.lean ====
/-
  The per-class sums and counts as arrays of shapes [19, 64] and [19].
-/
import proofs.«415046_j19516331393756_3_alg».proof.Proof.Spec

noncomputable section

namespace Cert.Centroid

open Idealize.ShloMosaic Idealize.ShloMosaic.ValueIdx

/-- The per-class sums, as a [19, 64] array. -/
def sumsArr (X : SX.Idx → EReal) (T : ST.Idx → BitVec 32) : (⟨2, ![19, 64]⟩ : Shape).Idx → EReal :=
  fun i => classSum X T ⟨(i 0).val, (i 0).isLt⟩ ⟨(i 1).val, (i 1).isLt⟩

/-- The per-class counts, as a [19] array. -/
def countsArr (T : ST.Idx → BitVec 32) : (⟨1, ![19]⟩ : Shape).Idx → EReal :=
  fun i => classCount T ⟨(i 0).val, (i 0).isLt⟩

theorem sumsArr_apply (X : SX.Idx → EReal) (T : ST.Idx → BitVec 32) (k : Fin 19) (c : Fin 64) :
    sumsArr X T (ix2 k c) = classSum X T k c := rfl

theorem countsArr_apply (T : ST.Idx → BitVec 32) (k : Fin 19) : countsArr T (ix1 k) = classCount T k := rfl

end Cert.Centroid

end
-- ==== Proof.KRun.lean ====
/-
  The kernel program's run, read back at the ideal values: every weakly fair execution ends with the result at the
  common tail of the specification's per-class sums and counts of the two arguments, and the arguments unchanged.
-/
import proofs.«415046_j19516331393756_3_alg».proof.Proof.KSums
import proofs.«415046_j19516331393756_3_alg».proof.Proof.SpecArr

noncomputable section

open Idealize.ShloMosaic Idealize.ShloMosaic.TcCoe Idealize.SL.Sem Idealize.ShloMosaic.ValueIdx
open Idealize.ShloMosaic.Pipeline (Dat)

namespace Cert.Centroid.KI

open Cert.KernelIdeal Cert.KernelIdeal.Gen

variable (m : (ℓ : Loc nD τ sig) → Buf (Elt Ideal) ℓ) (ρ : Dev nD → PrngReg)

theorem ksums_G2 (c : Dev nD) :
    ksums (F := Ideal) (G2 m c) = Cert.Centroid.sumsArr (argX m c) (argT m c) := by
  funext i
  obtain ⟨k, cc, rfl⟩ : ∃ (k : Fin 19) (cc : Fin 64), i = ix2 k cc := ⟨i 0, i 1, eq_ix2 i⟩
  exact kernel_sums m c k cc

theorem kcounts_G3 (c : Dev nD) :
    kcounts (F := Ideal) (G3 m c) = Cert.Centroid.countsArr (argT m c) := by
  funext i
  obtain ⟨k, rfl⟩ : ∃ (k : Fin 19), i = ix1 k := ⟨i 0, eq_ix1 i⟩
  exact kernel_counts m c k

/-- The result the program leaves, as a function of the two arguments. -/
def result (c : Dev nD) : Buf (Elt Ideal) ((c : Thread nD τ).loc main_v32) :=
  Cert.Centroid.tail (F := Ideal) (Cert.Centroid.sumsArr (argX m c) (argT m c))
    (Cert.Centroid.countsArr (argT m c))

theorem result_final (c : Dev nD) :
    Pipeline.afterTail₀ cfgs (dats m) 0 (V0 m) [hostOps1, hostOps1_1, hostOps1_2] c main_v32 = result m c := by
  rw [result_eq m c, final2, final3, ksums_G2, kcounts_G3]
  rfl

/-- THE RUN, READ. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v32 (Pipeline.mem_restRefs_of main_v32 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Centroid.KI

end
-- ==== Proof.RefSums.lean ====
/-
  The reference's two accumulating scatters are the per-class sums and counts.

  The reference flattens the `8 × 512 × 512` pixels to `2097152` rows (row `n = (b·512 + h)·512 + w`), lays the
  features out as a `[2097152, 64]` array and the labels as a `[2097152, 1]` array of index words, and scatters with
  addition into a zero `[19, 64]` array (the sums) and, with every update `1`, into a zero `[19]` array (the counts).

  A scatter's update at row `n` lands at the class its index word names, the word read SIGNED and not clamped; an
  update whose class falls outside `0 … 18` is dropped. So the element at class `k` is the sum of the updates over
  the rows whose word, read signed, is `k`; and since `k < 19 < 2^31`, "read signed is `k`" is "read unsigned is
  `k`". Summing over the rows `n` is summing over `(b, h, w)`, and at row `n` the label is `T (b, h, w)` and the
  feature `c` is `X (b, c, h, w)`: these are `classSum` and `classCount`.

  Contents: where an update lands, for the two dimension-number records (`d1_resultIdx`, `d2_resultIdx`); the two
  scatters read at a class (`scatter1_apply`, `scatter2_apply`); the sum over flat pixel numbers as a triple sum
  (`sum_pixels`); the two results (`ref_sums`, `ref_counts`).
-/
import proofs.«415046_j19516331393756_3_alg».proof.Proof.Gen.ReferenceIdeal.Read
import proofs.«415046_j19516331393756_3_alg».proof.Proof.Spec
import proofs.«415046_j19516331393756_3_alg».proof.Proof.LibSums
import Mathlib.Logic.Equiv.Fin.Basic
import Mathlib.Algebra.BigOperators.Fin

noncomputable section

open scoped BigOperators

namespace Cert.Centroid.Ref

open Cert.ReferenceIdeal Cert.ReferenceIdeal.Gen Idealize.ShloMosaic Idealize.ShloMosaic.ValueIdx

/-! ## Where an update lands -/

/-- The dimension numbers of the scatter of the sums: update `(n, c')` goes to `(class of row n, c')`. -/
abbrev d1 : ScatterDims S19x64 S2097152x1 S2097152x64 := scatter_S19x64_S2097152x1_S2097152x64_1_0_0_1
/-- The dimension numbers of the scatter of the counts: update `n` goes to the class of row `n`. -/
abbrev d2 : ScatterDims S19 S2097152x1 S2097152 := scatter_S19_S2097152x1_S2097152_n_0_0_1

/-- Update `(n, c')` reads its one start-index component at `(n, 0)` of the index words. -/
theorem d1_siIdx (n : Fin 2097152) (c' : Fin 64) (c : Fin d1.scatterDimsToOperandDims.length) :
    d1.siIdx (ix2 n c') c = ix2 n (0 : Fin 1) := by
  funext b
  match b with
  | ⟨0, _⟩ => rfl
  | ⟨1, _⟩ =>
    refine Fin.ext ?_
    show (c : Nat) = 0
    have h1 : d1.scatterDimsToOperandDims.length = 1 := rfl
    have := c.isLt
    omega

/-- On the class axis the window starts at the index word of row `n`, read signed. -/
theorem d1_start0 (n : Fin 2097152) (c' : Fin 64) (idx : IVec S2097152x1 32) :
    d1.start (ix2 n c') idx (0 : Fin 2) = (idx (ix2 n (0 : Fin 1))).toInt := by
  unfold ScatterDims.start
  rw [dif_pos (by decide), d1_siIdx]

/-- On the feature axis the window starts at `0`. -/
theorem d1_start1 (n : Fin 2097152) (c' : Fin 64) (idx : IVec S2097152x1 32) :
    d1.start (ix2 n c') idx (1 : Fin 2) = 0 := by
  unfold ScatterDims.start
  rw [dif_neg (by decide)]

/-- The class axis is an inserted axis: its window coordinate is `0`. -/
theorem d1_window0 (n : Fin 2097152) (c' : Fin 64) :
    d1.window (ix2 n c') (0 : Fin 2) = 0 := by
  unfold ScatterDims.window
  rw [dif_neg (by decide)]

/-- The feature axis carries the update's feature coordinate. -/
theorem d1_window1 (n : Fin 2097152) (c' : Fin 64) :
    d1.window (ix2 n c') (1 : Fin 2) = c'.val := by
  unfold ScatterDims.window
  rw [dif_pos (by decide)]
  rfl

/-- Update `(n, c')` lands at `(k, c)` exactly when row `n`'s index word, read signed, is `k` and `c' = c`; a word
    outside `0 … 18` lands nowhere. -/
theorem d1_resultIdx (n : Fin 2097152) (c' : Fin 64) (idx : IVec S2097152x1 32) (k : Fin 19) (c : Fin 64) :
    d1.resultIdx? (ix2 n c') idx = some (ix2 k c) ↔ (idx (ix2 n (0 : Fin 1))).toInt = (k.val : Int) ∧ c' = c := by
  unfold ScatterDims.resultIdx?
  split
  · rename_i h
    rw [Option.some.injEq]
    constructor
    · intro hf
      have h0 : (d1.start (ix2 n c') idx (0 : Fin 2) + d1.window (ix2 n c') (0 : Fin 2)).toNat = k.val :=
        congrArg (fun f => (f (0 : Fin 2)).val) hf
      have h1 : (d1.start (ix2 n c') idx (1 : Fin 2) + d1.window (ix2 n c') (1 : Fin 2)).toNat = c.val :=
        congrArg (fun f => (f (1 : Fin 2)).val) hf
      have hh := (h (0 : Fin 2)).1
      rw [d1_start0, d1_window0] at h0 hh
      rw [d1_start1, d1_window1] at h1
      exact ⟨by omega, Fin.ext (by omega)⟩
    · rintro ⟨ht, rfl⟩
      funext a
      match a with
      | ⟨0, _⟩ =>
        refine Fin.ext ?_
        show (d1.start (ix2 n c') idx (0 : Fin 2) + d1.window (ix2 n c') (0 : Fin 2)).toNat = k.val
        rw [d1_start0, d1_window0, ht]; omega
      | ⟨1, _⟩ =>
        refine Fin.ext ?_
        show (d1.start (ix2 n c') idx (1 : Fin 2) + d1.window (ix2 n c') (1 : Fin 2)).toNat = c'.val
        rw [d1_start1, d1_window1]; omega
  · rename_i h
    constructor
    · intro hf; cases hf
    · rintro ⟨ht, rfl⟩
      exfalso; apply h
      intro a
      match a with
      | ⟨0, _⟩ =>
        show (0 : Int) ≤ d1.start (ix2 n c') idx (0 : Fin 2) + d1.window (ix2 n c') (0 : Fin 2) ∧
          d1.start (ix2 n c') idx (0 : Fin 2) + d1.window (ix2 n c') (0 : Fin 2) < ((19 : Nat) : Int)
        rw [d1_start0, d1_window0, ht]
        have := k.isLt
        constructor <;> omega
      | ⟨1, _⟩ =>
        show (0 : Int) ≤ d1.start (ix2 n c') idx (1 : Fin 2) + d1.window (ix2 n c') (1 : Fin 2) ∧
          d1.start (ix2 n c') idx (1 : Fin 2) + d1.window (ix2 n c') (1 : Fin 2) < ((64 : Nat) : Int)
        rw [d1_start1, d1_window1]
        have := c'.isLt
        constructor <;> omega

/-- Update `n` reads its one start-index component at `(n, 0)` of the index words. -/
theorem d2_siIdx (n : Fin 2097152) (c : Fin d2.scatterDimsToOperandDims.length) :
    d2.siIdx (ix1 n) c = ix2 n (0 : Fin 1) := by
  funext b
  match b with
  | ⟨0, _⟩ => rfl
  | ⟨1, _⟩ =>
    refine Fin.ext ?_
    show (c : Nat) = 0
    have h1 : d2.scatterDimsToOperandDims.length = 1 := rfl
    have := c.isLt
    omega

/-- The window starts at the index word of row `n`, read signed. -/
theorem d2_start0 (n : Fin 2097152) (idx : IVec S2097152x1 32) :
    d2.start (ix1 n) idx (0 : Fin 1) = (idx (ix2 n (0 : Fin 1))).toInt := by
  unfold ScatterDims.start
  rw [dif_pos (by decide), d2_siIdx]

/-- The class axis is an inserted axis: its window coordinate is `0`. -/
theorem d2_window0 (n : Fin 2097152) :
    d2.window (ix1 n) (0 : Fin 1) = 0 := by
  unfold ScatterDims.window
  rw [dif_neg (by decide)]

/-- Update `n` lands at class `k` exactly when row `n`'s index word, read signed, is `k`. -/
theorem d2_resultIdx (n : Fin 2097152) (idx : IVec S2097152x1 32) (k : Fin 19) :
    d2.resultIdx? (ix1 n) idx = some (ix1 k) ↔ (idx (ix2 n (0 : Fin 1))).toInt = (k.val : Int) := by
  unfold ScatterDims.resultIdx?
  split
  · rename_i h
    rw [Option.some.injEq]
    constructor
    · intro hf
      have h0 : (d2.start (ix1 n) idx (0 : Fin 1) + d2.window (ix1 n) (0 : Fin 1)).toNat = k.val :=
        congrArg (fun f => (f (0 : Fin 1)).val) hf
      have hh := (h (0 : Fin 1)).1
      rw [d2_start0, d2_window0] at h0 hh
      omega
    · intro ht
      funext a
      match a with
      | ⟨0, _⟩ =>
        refine Fin.ext ?_
        show (d2.start (ix1 n) idx (0 : Fin 1) + d2.window (ix1 n) (0 : Fin 1)).toNat = k.val
        rw [d2_start0, d2_window0, ht]; omega
  · rename_i h
    constructor
    · intro hf; cases hf
    · intro ht
      exfalso; apply h
      intro a
      match a with
      | ⟨0, _⟩ =>
        show (0 : Int) ≤ d2.start (ix1 n) idx (0 : Fin 1) + d2.window (ix1 n) (0 : Fin 1) ∧
          d2.start (ix1 n) idx (0 : Fin 1) + d2.window (ix1 n) (0 : Fin 1) < ((19 : Nat) : Int)
        rw [d2_start0, d2_window0, ht]
        have := k.isLt
        constructor <;> omega

/-! ## The two scatters read at a class -/

/-- The accumulating scatter of the sums, read at class `k` and feature `c`: the operand there plus the updates of
    feature `c` over the rows whose index word, read signed, is `k`. -/
theorem scatter1_apply (x : FVec Ideal S19x64 .f32) (idx : IVec S2097152x1 32) (upd : FVec Ideal S2097152x64 .f32)
    (k : Fin 19) (c : Fin 64) :
    Host.scatterAdd d1 x idx upd (ix2 k c) =
      x (ix2 k c) + ∑ n : Fin 2097152, if (idx (ix2 n (0 : Fin 1))).toInt = (k.val : Int) then upd (ix2 n c) else 0 := by
  show Ideal.hostScatterAdd d1 x idx upd (ix2 k c) = _
  unfold Ideal.hostScatterAdd
  refine congrArg (x (ix2 k c) + ·) ?_
  rw [Finset.sum_filter, sum_idx2]
  refine Finset.sum_congr rfl fun n _ => ?_
  simp only [d1_resultIdx]
  by_cases hP : (idx (ix2 n (0 : Fin 1))).toInt = (k.val : Int)
  · simp only [hP, true_and, if_true]
    rw [Finset.sum_ite_eq' Finset.univ c (fun c' => upd (ix2 n c')), if_pos (Finset.mem_univ c)]
  · simp only [hP, false_and, if_false]
    exact Finset.sum_const_zero

/-- The accumulating scatter of the counts, read at class `k`. -/
theorem scatter2_apply (x : FVec Ideal S19 .f32) (idx : IVec S2097152x1 32) (upd : FVec Ideal S2097152 .f32)
    (k : Fin 19) :
    Host.scatterAdd d2 x idx upd (ix1 k) =
      x (ix1 k) + ∑ n : Fin 2097152, if (idx (ix2 n (0 : Fin 1))).toInt = (k.val : Int) then upd (ix1 n) else 0 := by
  show Ideal.hostScatterAdd d2 x idx upd (ix1 k) = _
  unfold Ideal.hostScatterAdd
  refine congrArg (x (ix1 k) + ·) ?_
  rw [Finset.sum_filter, LibSums.sum_idx1]
  refine Finset.sum_congr rfl fun n _ => ?_
  simp only [d2_resultIdx]

/-! ## The flat pixel number -/

section Flat
variable {M : Type*} [AddCommMonoid M]

/-- A sum over the flat positions of an `a × b` grid is the double sum over rows and columns. -/
theorem sum_flat2 {N : Nat} (a b : Nat) (hN : N = a * b) (g : Nat → M) :
    ∑ n : Fin N, g n.val = ∑ p : Fin a, ∑ q : Fin b, g (p.val * b + q.val) := by
  subst hN
  rw [← Fintype.sum_prod_type']
  refine (Fintype.sum_equiv finProdFinEquiv (fun pq : Fin a × Fin b => g (pq.1.val * b + pq.2.val))
    (fun n : Fin (a * b) => g n.val) (fun pq => ?_)).symm
  rw [finProdFinEquiv_apply_val, Nat.mul_comm, Nat.add_comm]

/-- The pixel `(b, h, w)` of the `8 × 512 × 512` grid by its flat number. -/
def pix (b : Fin 8) (h w : Fin 512) : Fin 2097152 :=
  ⟨(b.val * 512 + h.val) * 512 + w.val, by have := b.isLt; have := h.isLt; have := w.isLt; omega⟩

theorem pix_val (b : Fin 8) (h w : Fin 512) : (pix b h w).val = (b.val * 512 + h.val) * 512 + w.val := rfl

/-- A function of the pixel as a function of its flat number, zero past the last pixel. -/
def ofFlat (f : Fin 2097152 → M) (m : Nat) : M := if hm : m < 2097152 then f ⟨m, hm⟩ else 0

theorem ofFlat_val (f : Fin 2097152 → M) (n : Fin 2097152) : ofFlat f n.val = f n := by
  unfold ofFlat
  rw [dif_pos n.isLt]

/-- A sum over the flat pixel numbers is the triple sum over batch, row and column. -/
theorem sum_pixels (f : Fin 2097152 → M) :
    ∑ n : Fin 2097152, f n = ∑ b : Fin 8, ∑ h : Fin 512, ∑ w : Fin 512, f (pix b h w) := by
  rw [← Finset.sum_congr rfl fun n _ => ofFlat_val f n, sum_flat2 4096 512 (by norm_num) (ofFlat f)]
  rw [sum_flat2 8 512 (by norm_num) (fun m => ∑ q : Fin 512, ofFlat f (m * 512 + q.val))]
  refine Finset.sum_congr rfl fun b _ => Finset.sum_congr rfl fun h _ => Finset.sum_congr rfl fun w _ => ?_
  exact ofFlat_val f (pix b h w)

end Flat

/-- A 32-bit word read signed is the class number `k` (below 19) exactly when it is `k` read unsigned. -/
theorem toInt_eq_iff (x : BitVec 32) (k : Fin 19) : x.toInt = (k.val : Int) ↔ x.toNat = k.val := by
  rw [BitVec.toInt_eq_toNat_cond]
  have := x.isLt
  have := k.isLt
  split <;> omega

/-! ## The reference's scatters are the per-class sums and counts -/

open Cert.ReferenceIdeal.Read

/-- The label the flat pixel `pix b h w` reads is the label at `(b, h, w)`. -/
theorem label_idx (b : Fin 8) (h w : Fin 512) :
    idx_main_v2 (idx_main_v4 (ix2 (pix b h w) (0 : Fin 1))) = ix3 b h w := by
  have := b.isLt; have := h.isLt; have := w.isLt
  funext a
  match a with
  | ⟨0, _⟩ => exact Fin.ext (by show ((b.val * 512 + h.val) * 512 + w.val) / 262144 = b.val; omega)
  | ⟨1, _⟩ => exact Fin.ext (by show ((b.val * 512 + h.val) * 512 + w.val) / 512 % 512 = h.val; omega)
  | ⟨2, _⟩ => exact Fin.ext (by show ((b.val * 512 + h.val) * 512 + w.val) % 512 = w.val; omega)

/-- The feature `c` the flat pixel `pix b h w` reads is the input at `(b, c, h, w)`. -/
theorem feature_idx (b : Fin 8) (h w : Fin 512) (c : Fin 64) :
    idx_main_v0 (idx_main_v1 (ix2 (pix b h w) c)) = ix4 b c h w := by
  have := b.isLt; have := h.isLt; have := w.isLt; have := c.isLt
  funext a
  match a with
  | ⟨0, _⟩ => exact Fin.ext (by show (((b.val * 512 + h.val) * 512 + w.val) * 64 + c.val) / 16777216 = b.val; omega)
  | ⟨1, _⟩ => exact Fin.ext (by show (((b.val * 512 + h.val) * 512 + w.val) * 64 + c.val) % 64 = c.val; omega)
  | ⟨2, _⟩ => exact Fin.ext (by show (((b.val * 512 + h.val) * 512 + w.val) * 64 + c.val) / 32768 % 512 = h.val; omega)
  | ⟨3, _⟩ => exact Fin.ext (by show (((b.val * 512 + h.val) * 512 + w.val) * 64 + c.val) / 64 % 512 = w.val; omega)

/-- The reference's scattered sums are the per-class sums. -/
theorem ref_sums (X : FVec Ideal Cert.ReferenceIdeal.S8x64x512x512 .f32) (T : IVec Cert.ReferenceIdeal.S8x512x512 32)
    (k : Fin 19) (c : Fin 64) :
    Cert.ReferenceIdeal.Read.val_main_v5 (F := Ideal) X T (ix2 k c) = Cert.Centroid.classSum X T k c := by
  unfold Cert.ReferenceIdeal.Read.val_main_v5
  refine (scatter1_apply _ _ _ k c).trans ?_
  rw [val_main_v3_apply, val_main_cst_apply]
  show Ideal.ofBits .f32 0x00000000#32 + _ = _
  rw [Ideal.ofBits_zero_f32, zero_add, sum_pixels]
  unfold Cert.Centroid.classSum
  refine Finset.sum_congr rfl fun b _ => Finset.sum_congr rfl fun h _ => Finset.sum_congr rfl fun w _ => ?_
  rw [val_main_v4_apply, val_main_v2_apply, val_main_v1_apply, val_main_v0_apply, label_idx, feature_idx]
  exact if_congr (toInt_eq_iff _ k) rfl rfl

/-- The reference's scattered ones are the per-class counts. -/
theorem ref_counts (T : IVec Cert.ReferenceIdeal.S8x512x512 32) (k : Fin 19) :
    Cert.ReferenceIdeal.Read.val_main_v9 (F := Ideal) T (ix1 k) = Cert.Centroid.classCount T k := by
  unfold Cert.ReferenceIdeal.Read.val_main_v9
  refine (scatter2_apply _ _ _ k).trans ?_
  rw [val_main_v7_apply, val_main_cst_1_apply]
  show Ideal.ofBits .f32 0x00000000#32 + _ = _
  rw [Ideal.ofBits_zero_f32, zero_add, sum_pixels]
  unfold Cert.Centroid.classCount
  refine Finset.sum_congr rfl fun b _ => Finset.sum_congr rfl fun h _ => Finset.sum_congr rfl fun w _ => ?_
  rw [val_main_v8_apply, val_main_v2_apply, val_main_v6_apply, val_main_cst_0_apply, label_idx]
  show (if _ then Ideal.ofBits .f32 0x3F800000#32 else 0) = _
  rw [LibSums.ofBits_f32_3F800000]
  exact if_congr (toInt_eq_iff _ k) (by norm_num) rfl

end Cert.Centroid.Ref

end
-- ==== Proof.RRun.lean ====
/-
  The reference's result at the ideal values: the common tail of the specification's per-class sums and counts.
-/
import proofs.«415046_j19516331393756_3_alg».proof.Proof.RefSums
import proofs.«415046_j19516331393756_3_alg».proof.Proof.Tail
import proofs.«415046_j19516331393756_3_alg».proof.Proof.SpecArr

noncomputable section

open Idealize.ShloMosaic Idealize.ShloMosaic.TcCoe Idealize.SL.Sem Idealize.ShloMosaic.ValueIdx

namespace Cert.Centroid.Ref

open Cert.ReferenceIdeal Cert.ReferenceIdeal.Gen

theorem sums_eq (X : FVec Ideal S8x64x512x512 .f32) (T : IVec S8x512x512 32) :
    Read.val_main_v5 (F := Ideal) X T = Cert.Centroid.sumsArr X T := by
  funext i
  obtain ⟨k, cc, rfl⟩ : ∃ (k : Fin 19) (cc : Fin 64), i = ix2 k cc := ⟨i 0, i 1, eq_ix2 i⟩
  exact ref_sums X T k cc

theorem counts_eq (T : IVec S8x512x512 32) :
    Read.val_main_v9 (F := Ideal) T = Cert.Centroid.countsArr T := by
  funext i
  obtain ⟨k, rfl⟩ : ∃ (k : Fin 19), i = ix1 k := ⟨i 0, eq_ix1 i⟩
  exact ref_counts T k

/-- The reference's result as a function of the two arguments. -/
theorem result_eq (m : (ℓ : Loc nD τ sig) → Buf (Elt Ideal) ℓ) (c : Dev nD) :
    Cert.ReferenceIdeal.Value.res_main_v36 m c
      = Cert.Centroid.tail (F := Ideal) (Cert.Centroid.sumsArr (m ((c.tc : Thread nD τ).loc main_arg0)) (m ((c.tc : Thread nD τ).loc main_arg1)))
          (Cert.Centroid.countsArr (m ((c.tc : Thread nD τ).loc main_arg1))) := by
  rw [Read.val_main_v36_eq, Cert.Centroid.ref_tail, sums_eq, counts_eq]

end Cert.Centroid.Ref

end
-- ==== Proof.lean ====
/-
  The certificate's claims for the per-class centroid loss.

  The kernel program computes, on an 8 × 16 grid, per-batch-entry sums of the features over the pixels of each class
  (a product of the feature tile with the one-hot matrix of the tile's labels, accumulated over the sixteen tiles of
  a batch entry) and the matching pixel counts, sums both over the batch, and applies a common tail (centres, their
  normalisation, the matrix of cosines, the loss). The reference scatters the features and ones into per-class
  accumulators by the labels and applies the same tail.

  At the ideal values both per-class sums are `classSum`, the sum of the feature over the pixels whose label word is
  the class, and both counts are `classCount` (a label that names no class contributes to neither, on either side: the
  one-hot row matches nothing, and the scatter drops an update that lands outside its operand). So both results are the
  common tail of the same two arrays. The three frames are the generated frame runs and the reference's generated run;
  the ideal pass rewrote nothing, so `preserves` is trivial.
-/
import proofs.«415046_j19516331393756_3_alg».proof.Defs
import proofs.«415046_j19516331393756_3_alg».proof.Proof.Gen.Kernel
import proofs.«415046_j19516331393756_3_alg».proof.Proof.Gen.Kernel.Frame
import proofs.«415046_j19516331393756_3_alg».proof.Proof.Gen.KernelIdeal
import proofs.«415046_j19516331393756_3_alg».proof.Proof.Gen.KernelIdeal.Frame
import proofs.«415046_j19516331393756_3_alg».proof.Proof.Gen.ReferenceIdeal
import proofs.«415046_j19516331393756_3_alg».proof.Proof.Gen.ReferenceIdeal.Run
import proofs.«415046_j19516331393756_3_alg».proof.Proof.Gen.Pre_finite_inputs
import proofs.«415046_j19516331393756_3_alg».proof.Proof.KRun
import proofs.«415046_j19516331393756_3_alg».proof.Proof.RRun
import Idealize.ShloMosaic.Adequacy
import Idealize.ShloMosaic.Init

noncomputable section

namespace Cert.Proof

open Idealize.ShloMosaic Idealize.ShloMosaic.TcCoe Idealize.SL.Sem

/-- The kernel program runs and keeps its arguments: its generated frame. -/
theorem frame_k : Cert.frame_Kernel := fun m ρ _ => Cert.Kernel.Gen.frame m ρ

/-- The idealized kernel program runs and keeps its arguments: its generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree both programs end at the common tail of the per-class sums and counts of those
    arguments. -/
theorem algebraic : Cert.algebraic_KernelIdeal_ReferenceIdeal := by
  intro m ρ m' ρ' _ hagree
  refine ⟨fun c => Cert.Centroid.KI.result m c, Cert.Centroid.KI.run m ρ, ?_⟩
  refine (θ_run Cert.ReferenceIdeal.defs _ _).mono (fun _ h c => ⟨(h c).1.trans ?_, (h c).2⟩)
    (Cert.ReferenceIdeal.Value.run (F := Ideal) m' ρ')
  rw [Cert.Centroid.Ref.result_eq m' c, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
